-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S480x91 .f32 .bf16
  ∧ IdealRules.truncf_extf.Statement Cert.KernelIdeal.S480x91 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S_ : Shape := ⟨0, ![]⟩

class Facts : Prop where
  bcast_S_S16x900x91 : S_.BroadcastsInDim S16x900x91 (![] : Fin 0 → Fin S16x900x91.rank)
  reducesTo_S16x900x91_S_d0_1_2 : S16x900x91.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S1600x4 : S_.BroadcastsInDim S1600x4 (![] : Fin 0 → Fin S1600x4.rank)
  reducesTo_S1600x4_S_d0_1 : S1600x4.ReducesTo [0, 1] S_
  bcast_S_S1600 : S_.BroadcastsInDim S1600 (![] : Fin 0 → Fin S1600.rank)
  reducesTo_S1600_S_d0 : S1600.ReducesTo [0] S_

variable [Facts]

def fn_part1 {F : FTy → Type} [FloatOps F] (main_v13 : IVec S_ 1) (main_v15 : IVec S1600 1) (main_c_5 : IVec S_ 1) : IVec S_ 1 :=
  let main_v16 : IVec S_ 1 := (fun x v => Host.reduce IntOp.andi x v reducesTo_S1600_S_d0 h_S_) main_v15 main_c_5
  let main_v17 : IVec S_ 1 := andi main_v13 main_v16
  main_v17

def fn {F : FTy → Type} [FloatOps F] (main_arg0 : FVec F S16x900x91 .f32) (main_arg1 : FVec F S16x900x4 .f32) (main_arg2 : IVec S1600 32) (main_arg3 : FVec F S1600x4 .f32) : IVec S_ 1 :=
  let main_v0 : FVec F S16x900x91 .f32 := Host.absf main_arg0
  let main_cst : FVec F S_ .f32 := constant S_ .f32 0x7F800000#32
  let main_v1 : FVec F S16x900x91 .f32 := broadcastInDim S16x900x91 ![] bcast_S_S16x900x91 main_cst
  let main_v2 : IVec S16x900x91 1 := cmpf .olt main_v0 main_v1
  let main_c : IVec S_ 1 := constantI S_ 1 1#1
  let main_v3 : IVec S_ 1 := (fun x v => Host.reduce IntOp.andi x v reducesTo_S16x900x91_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S1600x4 .f32 := Host.absf main_arg3
  let main_cst_2 : FVec F S_ .f32 := constant S_ .f32 0x7F800000#32
  let main_v10 : FVec F S1600x4 .f32 := broadcastInDim S1600x4 ![] bcast_S_S1600x4 main_cst_2
  let main_v11 : IVec S1600x4 1 := cmpf .olt main_v9 main_v10
  let main_c_3 : IVec S_ 1 := constantI S_ 1 1#1
  let main_v12 : IVec S_ 1 := (fun x v => Host.reduce IntOp.andi x v reducesTo_S1600x4_S_d0_1 h_S_) main_v11 main_c_3
  let main_v13 : IVec S_ 1 := andi main_v8 main_v12
  let main_c_4 : IVec S_ 32 := constantI S_ 32 0#32
  let main_v14 : IVec S1600 32 := broadcastInDim S1600 ![] bcast_S_S1600 main_c_4
  let main_v15 : IVec S1600 1 := cmpi .sge main_arg2 main_v14
  let main_c_5 : IVec S_ 1 := constantI S_ 1 1#1
  fn_part1 (F := F) main_v13 main_v15 main_c_5
-- ==== Kernel.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S14400x91 : Shape := ⟨2, ![14400, 91]⟩
abbrev S14400x4 : Shape := ⟨2, ![14400, 4]⟩
abbrev S_ : Shape := ⟨0, ![]⟩
abbrev S1600x1 : Shape := ⟨2, ![1600, 1]⟩
abbrev S1x91 : Shape := ⟨2, ![1, 91]⟩
abbrev S1600x91 : Shape := ⟨2, ![1600, 91]⟩
abbrev S91x1600 : Shape := ⟨2, ![91, 1600]⟩
abbrev S4x1600 : Shape := ⟨2, ![4, 1600]⟩
abbrev S14400x1600 : Shape := ⟨2, ![14400, 1600]⟩
abbrev S480x91 : Shape := ⟨2, ![480, 91]⟩
abbrev S480x4 : Shape := ⟨2, ![480, 4]⟩
abbrev S480x1600 : Shape := ⟨2, ![480, 1600]⟩
abbrev S480x1 : Shape := ⟨2, ![480, 1]⟩
abbrev S1x1600 : Shape := ⟨2, ![1, 1600]⟩
abbrev S16x900x1600 : Shape := ⟨3, ![16, 900, 1600]⟩

abbrev nBuf : Space → Nat
  | .hbm => 24
  | .vmem => 8
  | .smem => 0
  | _ => 0

abbrev bufTy : (tb : Table) → Fin (tcTables nBuf tb) → BufTy
  | .hbm, ⟨0, _⟩ => ⟨S16x900x91, .f32⟩
  | .hbm, ⟨1, _⟩ => ⟨S16x900x4, .f32⟩
  | .hbm, ⟨2, _⟩ => ⟨S1600, .i32⟩
  | .hbm, ⟨3, _⟩ => ⟨S1600x4, .f32⟩
  | .hbm, ⟨4, _⟩ => ⟨S14400x91, .f32⟩
  | .hbm, ⟨5, _⟩ => ⟨S14400x4, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1600, .i32⟩
  | .hbm, ⟨10, _⟩ => ⟨S1600, .i32⟩
  | .hbm, ⟨11, _⟩ => ⟨S_, .i32⟩
  | .hbm, ⟨12, _⟩ => ⟨S1600, .i32⟩
  | .hbm, ⟨13, _⟩ => ⟨S1600, .i32⟩
  | .hbm, ⟨14, _⟩ => ⟨S1600x1, .i32⟩
  | .hbm, ⟨15, _⟩ => ⟨S1x91, .i32⟩
  | .hbm, ⟨16, _⟩ => ⟨S1600x91, .i32⟩
  | .hbm, ⟨17, _⟩ => ⟨S1600x91, .i32⟩
  | .hbm, ⟨18, _⟩ => ⟨S1600x91, .i1⟩
  | .hbm, ⟨19, _⟩ => ⟨S1600x91, .bf16⟩
  | .hbm, ⟨20, _⟩ => ⟨S91x1600, .bf16⟩
  | .hbm, ⟨21, _⟩ => ⟨S4x1600, .f32⟩
  | .hbm, ⟨22, _⟩ => ⟨S14400x1600, .f32⟩
  | .hbm, ⟨23, _⟩ => ⟨S16x900x1600, .f32⟩
  | .local _ .vmem, ⟨0, _⟩ => ⟨S480x91, .f32⟩
  | .local _ .vmem, ⟨1, _⟩ => ⟨S480x91, .f32⟩
  | .local _ .vmem, ⟨2, _⟩ => ⟨S480x4, .f32⟩
  | .local _ .vmem, ⟨3, _⟩ => ⟨S480x4, .f32⟩
  | .local _ .vmem, ⟨4, _⟩ => ⟨S91x1600, .bf16⟩
  | .local _ .vmem, ⟨5, _⟩ => ⟨S4x1600, .f32⟩
  | .local _ .vmem, ⟨6, _⟩ => ⟨S480x1600, .f32⟩
  | .local _ .vmem, ⟨7, _⟩ => ⟨S480x1600, .f32⟩
  | _, _ => ⟨S16x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S480x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S91x1600 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S480x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x900x91_S14400x91 : S16x900x91.ShapeCasts S14400x91
  shapeCasts_S16x900x4_S14400x4 : S16x900x4.ShapeCasts S14400x4
  bcast_S_S1600 : S_.BroadcastsInDim S1600 (![] : Fin 0 → Fin S1600.rank)
  bcast_S1600_S1600x1_0 : S1600.BroadcastsInDim S1600x1 (![0] : Fin 1 → Fin S1600x1.rank)
  bcast_S1600x1_S1600x91_0_1 : S1600x1.BroadcastsInDim S1600x91 (![0, 1] : Fin 2 → Fin S1600x91.rank)
  bcast_S1x91_S1600x91_0_1 : S1x91.BroadcastsInDim S1600x91 (![0, 1] : Fin 2 → Fin S1600x91.rank)
  transposes_S1600x91_S91x1600_1_0 : S1600x91.Transposes [1, 0] S91x1600
  transposes_S1600x4_S4x1600_1_0 : S1600x4.Transposes [1, 0] S4x1600
  inb_S480x91_S480x91_0_0 : ∀ a, (![0, 0] : Fin 2 → Nat) a + S480x91.size a ≤ S480x91.size a
  h_S480x91 : 0 < S480x91.numel
  shapeCasts_S480x91_S480x91 : S480x91.ShapeCasts S480x91
  bitsLt_bf16_f32 : FTy.bits .bf16 < FTy.bits .f32
  inb_S91x1600_S91x1600_0_0 : ∀ a, (![0, 0] : Fin 2 → Nat) a + S91x1600.size a ≤ S91x1600.size a
  h_S91x1600 : 0 < S91x1600.numel
  shapeCasts_S91x1600_S91x1600 : S91x1600.ShapeCasts S91x1600
  inb_S480x4_S480x4_0_0 : ∀ a, (![0, 0] : Fin 2 → Nat) a + S480x4.size a ≤ S480x4.size a
  h_S480x4 : 0 < S480x4.numel
  shapeCasts_S480x4_S480x4 : S480x4.ShapeCasts S480x4
  inb_S4x1600_S4x1600_0_0 : ∀ a, (![0, 0] : Fin 2 → Nat) a + S4x1600.size a ≤ S4x1600.size a
  h_S4x1600 : 0 < S4x1600.numel
  shapeCasts_S4x1600_S4x1600 : S4x1600.ShapeCasts S4x1600
  slices_S480x4_o0_0_S480x1 : S480x4.Slices ![0, 0] S480x1
  slices_S480x4_o0_1_S480x1 : S480x4.Slices ![0, 1] S480x1
  slices_S480x4_o0_2_S480x1 : S480x4.Slices ![0, 2] S480x1
  slices_S480x4_o0_3_S480x1 : S480x4.Slices ![0, 3] S480x1
  slices_S4x1600_o0_0_S1x1600 : S4x1600.Slices ![0, 0] S1x1600
  slices_S4x1600_o1_0_S1x1600 : S4x1600.Slices ![1, 0] S1x1600
  slices_S4x1600_o2_0_S1x1600 : S4x1600.Slices ![2, 0] S1x1600
  slices_S4x1600_o3_0_S1x1600 : S4x1600.Slices ![3, 0] S1x1600
  broadcasts_S480x1_S480x1600 : S480x1.Broadcasts S480x1600
  broadcasts_S1x1600_S480x1600 : S1x1600.Broadcasts S480x1600
  inb_S480x1600_S480x1600_0_0 : ∀ a, (![0, 0] : Fin 2 → Nat) a + S480x1600.size a ≤ S480x1600.size a
  h_S480x1600 : 0 < S480x1600.numel
  shapeCasts_S14400x1600_S16x900x1600 : S14400x1600.ShapeCasts S16x900x1600
  dot_S480x91_S91x1600_S480x1600_1_0_0_1_n_n_wf : DotDims.WF S480x91 S91x1600 S480x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S480x91.size a ≤ S14400x91.size a
  hwx0_0 : ∀ i : grid0.Coords, EltTy.bits .f32 = 32 ∨ (Rect.block (s := S14400x91) S480x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S480x4.size a ≤ S14400x4.size a
  hwx0_1 : ∀ i : grid0.Coords, EltTy.bits .f32 = 32 ∨ (Rect.block (s := S14400x4) S480x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S91x1600.size a ≤ S91x1600.size a
  hwx0_2 : ∀ i : grid0.Coords, EltTy.bits .bf16 = 32 ∨ (Rect.block (s := S91x1600) S91x1600.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1600.size a ≤ S4x1600.size a
  hwx0_3 : ∀ i : grid0.Coords, EltTy.bits .f32 = 32 ∨ (Rect.block (s := S4x1600) S4x1600.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S480x1600.size a ≤ S14400x1600.size a
  hwx0_4 : ∀ i : grid0.Coords, EltTy.bits .f32 = 32 ∨ (Rect.block (s := S14400x1600) S480x1600.size (cc0_transform_4 i) (hinb0_4 i)).WholeWords (EltTy.packing .f32)

variable [Facts₀]

def dot_S480x91_S91x1600_S480x1600_1_0_0_1_n_n : DotDims S480x91 S91x1600 S480x1600 where
  lhsContracting := [1]
  rhsContracting := [0]
  lhsNonContracting := [0]
  rhsNonContracting := [1]
  lhsBatch := []
  rhsBatch := []
  wf := dot_S480x91_S91x1600_S480x1600_1_0_0_1_n_n_wf

abbrev win0_0 : Pipeline.Window sig grid0 :=
  Pipeline.Window.ofSpec (Memref.whole main_v0) S480x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S480x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S91x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S480x1600.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S14400x91 : Shape := ⟨2, ![14400, 91]⟩
abbrev S_ : Shape := ⟨0, ![]⟩
abbrev S14400x4 : Shape := ⟨2, ![14400, 4]⟩
abbrev S1600x1 : Shape := ⟨2, ![1600, 1]⟩
abbrev S14400x1600 : Shape := ⟨2, ![14400, 1600]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S14400x1 : Shape := ⟨2, ![14400, 1]⟩
abbrev S14400 : Shape := ⟨1, ![14400]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S1x1600 : Shape := ⟨2, ![1, 1600]⟩
abbrev S16x900x1600 : Shape := ⟨3, ![16, 900, 1600]⟩

abbrev nBuf : Space → Nat
  | .hbm => 222
  | .vmem => 0
  | .smem => 0
  | _ => 0

abbrev hbmTy0_0 (i : Nat) : BufTy := match i % 128 with
  | 0 => ⟨S16x900x91, .f32⟩
  | 1 => ⟨S16x900x4, .f32⟩
  | 2 => ⟨S1600, .i32⟩
  | 3 => ⟨S1600x4, .f32⟩
  | 4 => ⟨S14400x91, .f32⟩
  | 5 => ⟨S14400x91, .f32⟩
  | 6 => ⟨S14400x91, .f32⟩
  | 7 => ⟨S_, .f32⟩
  | 8 => ⟨S14400x91, .f32⟩
  | 9 => ⟨S14400x91, .f32⟩
  | 10 => ⟨S_, .f32⟩
  | 11 => ⟨S14400x91, .f32⟩
  | 12 => ⟨S14400x91, .f32⟩
  | 13 => ⟨S14400x4, .f32⟩
  | 14 => ⟨S_, .f32⟩
  | 15 => ⟨S14400x91, .f32⟩
  | 16 => ⟨S14400x91, .f32⟩
  | 17 => ⟨S_, .f32⟩
  | 18 => ⟨S14400x91, .f32⟩
  | 19 => ⟨S14400x91, .f32⟩
  | 20 => ⟨S_, .f32⟩
  | 21 => ⟨S14400x91, .f32⟩
  | 22 => ⟨S14400x91, .f32⟩
  | 23 => ⟨S_, .f32⟩
  | 24 => ⟨S14400x91, .f32⟩
  | 25 => ⟨S14400x91, .f32⟩
  | 26 => ⟨S14400x91, .f32⟩
  | 27 => ⟨S14400x91, .f32⟩
  | 28 => ⟨S14400x91, .f32⟩
  | 29 => ⟨S_, .f32⟩
  | 30 => ⟨S14400x91, .f32⟩
  | 31 => ⟨S14400x91, .f32⟩
  | 32 => ⟨S_, .f32⟩
  | 33 => ⟨S14400x91, .f32⟩
  | 34 => ⟨S14400x91, .f32⟩
  | 35 => ⟨S_, .f32⟩
  | 36 => ⟨S14400x91, .f32⟩
  | 37 => ⟨S14400x91, .f32⟩
  | 38 => ⟨S_, .f32⟩
  | 39 => ⟨S14400x91, .f32⟩
  | 40 => ⟨S14400x91, .f32⟩
  | 41 => ⟨S14400x91, .f32⟩
  | 42 => ⟨S14400x91, .f32⟩
  | 43 => ⟨S14400x91, .f32⟩
  | 44 => ⟨S_, .i32⟩
  | 45 => ⟨S1600, .i32⟩
  | 46 => ⟨S1600, .i1⟩
  | 47 => ⟨S_, .i32⟩
  | 48 => ⟨S1600, .i32⟩
  | 49 => ⟨S1600, .i32⟩
  | 50 => ⟨S1600, .i32⟩
  | 51 => ⟨S1600x1, .i32⟩
  | 52 => ⟨S14400x1600, .f32⟩
  | 53 => ⟨S_, .i32⟩
  | 54 => ⟨S1600, .i32⟩
  | 55 => ⟨S1600, .i1⟩
  | 56 => ⟨S_, .i32⟩
  | 57 => ⟨S1600, .i32⟩
  | 58 => ⟨S1600, .i32⟩
  | 59 => ⟨S1600, .i32⟩
  | 60 => ⟨S1600x1, .i32⟩
  | 61 => ⟨S14400x1600, .f32⟩
  | 62 => ⟨S14400x1600, .f32⟩
  | 63 => ⟨S14400x1x4, .f32⟩
  | 64 => ⟨S1x1600x4, .f32⟩
  | 65 => ⟨S14400x1600x4, .f32⟩
  | 66 => ⟨S14400x1600x4, .f32⟩
  | 67 => ⟨S14400x1600x4, .f32⟩
  | 68 => ⟨S14400x1600x4, .f32⟩
  | 69 => ⟨S_, .f32⟩
  | 70 => ⟨S14400x1600, .f32⟩
  | 71 => ⟨S14400x1, .f32⟩
  | 72 => ⟨S14400, .f32⟩
  | 73 => ⟨S14400x1, .f32⟩
  | 74 => ⟨S14400, .f32⟩
  | 75 => ⟨S14400x1, .f32⟩
  | 76 => ⟨S14400, .f32⟩
  | 77 => ⟨S14400x1, .f32⟩
  | 78 => ⟨S14400, .f32⟩
  | 79 => ⟨S_, .f32⟩
  | 80 => ⟨S14400, .f32⟩
  | 81 => ⟨S14400, .f32⟩
  | 82 => ⟨S14400, .f32⟩
  | 83 => ⟨S_, .f32⟩
  | 84 => ⟨S14400, .f32⟩
  | 85 => ⟨S14400, .f32⟩
  | 86 => ⟨S14400, .f32⟩
  | 87 => ⟨S_, .f32⟩
  | 88 => ⟨S14400, .f32⟩
  | 89 => ⟨S14400, .f32⟩
  | 90 => ⟨S14400, .f32⟩
  | 91 => ⟨S_, .f32⟩
  | 92 => ⟨S14400, .f32⟩
  | 93 => ⟨S14400, .f32⟩
  | 94 => ⟨S14400, .f32⟩
  | 95 => ⟨S14400x1, .f32⟩
  | 96 => ⟨S14400x1, .f32⟩
  | 97 => ⟨S14400x1, .f32⟩
  | 98 => ⟨S14400x1, .f32⟩
  | 99 => ⟨S14400x4, .f32⟩
  | 100 => ⟨S1600x1, .f32⟩
  | 101 => ⟨S1600, .f32⟩
  | 102 => ⟨S1600x1, .f32⟩
  | 103 => ⟨S1600, .f32⟩
  | 104 => ⟨S1600x1, .f32⟩
  | 105 => ⟨S1600, .f32⟩
  | 106 => ⟨S1600x1, .f32⟩
  | 107 => ⟨S1600, .f32⟩
  | 108 => ⟨S_, .f32⟩
  | 109 => ⟨S1600, .f32⟩
  | 110 => ⟨S1600, .f32⟩
  | 111 => ⟨S1600, .f32⟩
  | 112 => ⟨S_, .f32⟩
  | 113 => ⟨S1600, .f32⟩
  | 114 => ⟨S1600, .f32⟩
  | 115 => ⟨S1600, .f32⟩
  | 116 => ⟨S_, .f32⟩
  | 117 => ⟨S1600, .f32⟩
  | 118 => ⟨S1600, .f32⟩
  | 119 => ⟨S1600, .f32⟩
  | 120 => ⟨S_, .f32⟩
  | 121 => ⟨S1600, .f32⟩
  | 122 => ⟨S1600, .f32⟩
  | 123 => ⟨S1600, .f32⟩
  | 124 => ⟨S1600x1, .f32⟩
  | 125 => ⟨S1600x1, .f32⟩
  | 126 => ⟨S1600x1, .f32⟩
  | 127 => ⟨S1600x1, .f32⟩
  | _ => ⟨S16x900x91, .f32⟩

abbrev hbmTy0_1 (i : Nat) : BufTy := match i % 128 with
  | 0 => ⟨S1600x4, .f32⟩
  | 1 => ⟨S14400x1, .f32⟩
  | 2 => ⟨S14400, .f32⟩
  | 3 => ⟨S14400x1, .f32⟩
  | 4 => ⟨S14400, .f32⟩
  | 5 => ⟨S14400, .f32⟩
  | 6 => ⟨S14400x1, .f32⟩
  | 7 => ⟨S14400, .f32⟩
  | 8 => ⟨S14400x1, .f32⟩
  | 9 => ⟨S14400, .f32⟩
  | 10 => ⟨S14400, .f32⟩
  | 11 => ⟨S14400, .f32⟩
  | 12 => ⟨S1600x1, .f32⟩
  | 13 => ⟨S1600, .f32⟩
  | 14 => ⟨S1600x1, .f32⟩
  | 15 => ⟨S1600, .f32⟩
  | 16 => ⟨S1600, .f32⟩
  | 17 => ⟨S1600x1, .f32⟩
  | 18 => ⟨S1600, .f32⟩
  | 19 => ⟨S1600x1, .f32⟩
  | 20 => ⟨S1600, .f32⟩
  | 21 => ⟨S1600, .f32⟩
  | 22 => ⟨S1600, .f32⟩
  | 23 => ⟨S14400x2, .f32⟩
  | 24 => ⟨S14400x1x2, .f32⟩
  | 25 => ⟨S1600x2, .f32⟩
  | 26 => ⟨S1x1600x2, .f32⟩
  | 27 => ⟨S14400x1600x2, .f32⟩
  | 28 => ⟨S14400x1600x2, .f32⟩
  | 29 => ⟨S14400x1600x2, .f32⟩
  | 30 => ⟨S14400x2, .f32⟩
  | 31 => ⟨S14400x1x2, .f32⟩
  | 32 => ⟨S1600x2, .f32⟩
  | 33 => ⟨S1x1600x2, .f32⟩
  | 34 => ⟨S14400x1600x2, .f32⟩
  | 35 => ⟨S14400x1600x2, .f32⟩
  | 36 => ⟨S14400x1600x2, .f32⟩
  | 37 => ⟨S14400x1600x2, .f32⟩
  | 38 => ⟨S_, .f32⟩
  | 39 => ⟨S_, .f32⟩
  | 40 => ⟨S14400x1600x2, .f32⟩
  | 41 => ⟨S14400x1600x2, .f32⟩
  | 42 => ⟨S14400x1600x1, .f32⟩
  | 43 => ⟨S14400x1600, .f32⟩
  | 44 => ⟨S14400x1600x1, .f32⟩
  | 45 => ⟨S14400x1600, .f32⟩
  | 46 => ⟨S14400x1600, .f32⟩
  | 47 => ⟨S14400x1, .f32⟩
  | 48 => ⟨S1x1600, .f32⟩
  | 49 => ⟨S14400x1600, .f32⟩
  | 50 => ⟨S14400x1600, .f32⟩
  | 51 => ⟨S14400x1600, .f32⟩
  | 52 => ⟨S14400x1600, .f32⟩
  | 53 => ⟨S14400x1600, .f32⟩
  | 54 => ⟨S14400x2, .f32⟩
  | 55 => ⟨S14400x1x2, .f32⟩
  | 56 => ⟨S1600x2, .f32⟩
  | 57 => ⟨S1x1600x2, .f32⟩
  | 58 => ⟨S14400x1600x2, .f32⟩
  | 59 => ⟨S14400x1600x2, .f32⟩
  | 60 => ⟨S14400x1600x2, .f32⟩
  | 61 => ⟨S14400x2, .f32⟩
  | 62 => ⟨S14400x1x2, .f32⟩
  | 63 => ⟨S1600x2, .f32⟩
  | 64 => ⟨S1x1600x2, .f32⟩
  | 65 => ⟨S14400x1600x2, .f32⟩
  | 66 => ⟨S14400x1600x2, .f32⟩
  | 67 => ⟨S14400x1600x2, .f32⟩
  | 68 => ⟨S14400x1600x2, .f32⟩
  | 69 => ⟨S_, .f32⟩
  | 70 => ⟨S_, .f32⟩
  | 71 => ⟨S14400x1600x2, .f32⟩
  | 72 => ⟨S14400x1600x2, .f32⟩
  | 73 => ⟨S14400x1600x1, .f32⟩
  | 74 => ⟨S14400x1600, .f32⟩
  | 75 => ⟨S14400x1600x1, .f32⟩
  | 76 => ⟨S14400x1600, .f32⟩
  | 77 => ⟨S14400x1600, .f32⟩
  | 78 => ⟨S14400x1600, .f32⟩
  | 79 => ⟨S14400x1600, .f32⟩
  | 80 => ⟨S14400x1600, .f32⟩
  | 81 => ⟨S14400x1600, .f32⟩
  | 82 => ⟨S_, .f32⟩
  | 83 => ⟨S14400x1600, .f32⟩
  | 84 => ⟨S14400x1600, .f32⟩
  | 85 => ⟨S_, .f32⟩
  | 86 => ⟨S14400x1600, .f32⟩
  | 87 => ⟨S14400x1600, .f32⟩
  | 88 => ⟨S14400x1600, .f32⟩
  | 89 => ⟨S_, .f32⟩
  | 90 => ⟨S14400x1600, .f32⟩
  | 91 => ⟨S14400x1600, .f32⟩
  | 92 => ⟨S14400x1600, .f32⟩
  | 93 => ⟨S16x900x1600, .f32⟩
  | _ => ⟨S16x900x91, .f32⟩

abbrev hbmTy (i : Nat) : BufTy := match i / 128 with
  | 0 => hbmTy0_0 i
  | 1 => hbmTy0_1 i
  | _ => ⟨S16x900x91, .f32⟩

abbrev bufTy : (tb : Table) → Fin (tcTables nBuf tb) → BufTy
  | .hbm, ⟨i, _⟩ => hbmTy i
  | _, _ => ⟨S16x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_c_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_15 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_16 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_17 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_18 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_19 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_20 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_21 : Ref sig .tc := ⟨.hbm, 166, rfl⟩
abbrev main_call0_v0 : Ref sig .tc := ⟨.hbm, 167, rfl⟩
abbrev main_call0_v1 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_cst_22 : Ref sig .tc := ⟨.hbm, 197, rfl⟩
abbrev main_call1_v0 : Ref sig .tc := ⟨.hbm, 198, rfl⟩
abbrev main_call1_v1 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_cst_23 : Ref sig .tc := ⟨.hbm, 210, rfl⟩
abbrev main_v177 : Ref sig .tc := ⟨.hbm, 211, rfl⟩
abbrev main_v178 : Ref sig .tc := ⟨.hbm, 212, rfl⟩
abbrev main_cst_24 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_cst_25 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩

abbrev nD : Nat := 1
abbrev τ : Topo := Topo.v7x

variable {F : FTy → Type} [FloatOps F]

class Facts₀ : Prop where
  shapeCasts_S16x900x91_S14400x91 : S16x900x91.ShapeCasts S14400x91
  bcast_S_S14400x91 : S_.BroadcastsInDim S14400x91 (![] : Fin 0 → Fin S14400x91.rank)
  shapeCasts_S16x900x4_S14400x4 : S16x900x4.ShapeCasts S14400x4
  bcast_S_S1600 : S_.BroadcastsInDim S1600 (![] : Fin 0 → Fin S1600.rank)
  bcast_S1600_S1600x1_0 : S1600.BroadcastsInDim S1600x1 (![0] : Fin 1 → Fin S1600x1.rank)
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  h_S_ : 0 < S_.numel
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400 : S_.BroadcastsInDim S14400 (![] : Fin 0 → Fin S14400.rank)
  bcast_S14400_S14400x1_0 : S14400.BroadcastsInDim S14400x1 (![0] : Fin 1 → Fin S14400x1.rank)
  concatenates_S14400x1_S14400x1_S14400x1_S14400x1_S14400x4_d1 : Shape.Concatenates [S14400x1, S14400x1, S14400x1, S14400x1] S14400x4 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  concatenates_S1600x1_S1600x1_S1600x1_S1600x1_S1600x4_d1 : Shape.Concatenates [S1600x1, S1600x1, S1600x1, S1600x1] S1600x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  bcast_S_S14400x1600 : S_.BroadcastsInDim S14400x1600 (![] : Fin 0 → Fin S14400x1600.rank)
  shapeCasts_S14400x1600_S16x900x1600 : S14400x1600.ShapeCasts S16x900x1600
  gather_S14400x91_S1600x1_S14400x1600_0_1_n_n_1_1_144001_wf : GatherDims.WF S14400x91 S1600x1 S14400x1600 [0] [1] [] [1] [] 1 ![14400, 1]

variable [Facts₀]

def gather_S14400x91_S1600x1_S14400x1600_0_1_n_n_1_1_144001 : GatherDims S14400x91 S1600x1 S14400x1600 where
  offsetDims := [0]
  collapsedSliceDims := [1]
  operandBatchingDims := []
  startIndicesBatchingDims := []
  startIndexMap := [1]
  indexVectorDim := 1
  sliceSizes := ![14400, 1]
  wf := gather_S14400x91_S1600x1_S14400x1600_0_1_n_n_1_1_144001_wf

class Facts : Prop extends Facts₀ where

variable [Facts]
-- ==== Proof.FrameClaims.lean ====
/-
  The three frame claims and the idealization's two ledger entries.

  Both kernels' frames are the launch-and-body run of the one grid (30 points, each loading its blocks through whole
  rectangles and storing its output block whole); the reference has no kernel, and its frame is its straight-line run
  with the result forgotten. The ideal pass replaced two widen-after-narrow windows (f32 → bf16 → f32 on the two
  remainders of the three-way split) by the identity: on the extended reals a change of format changes nothing.
-/
import proofs.«412521_j19782619365959_3_alg».proof.Defs
import proofs.«412521_j19782619365959_3_alg».proof.Proof.Gen.Kernel.Frame
import proofs.«412521_j19782619365959_3_alg».proof.Proof.Gen.KernelIdeal.Frame
import proofs.«412521_j19782619365959_3_alg».proof.Proof.Gen.ReferenceIdeal.Run
import proofs.«412521_j19782619365959_3_alg».proof.Proof.Gen.Pre_finite_inputs

noncomputable section

namespace Cert.Proof.FrameClaims

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Narrowing to bf16 and widening back is the identity on extended reals, at both sites. -/
theorem preserves : Cert.preserves_Kernel_KernelIdeal :=
  ⟨IdealRules.truncf_extf.statement Cert.KernelIdeal.S480x91 .f32 .bf16,
    IdealRules.truncf_extf.statement Cert.KernelIdeal.S480x91 .f32 .bf16⟩

end Cert.Proof.FrameClaims

end
-- ==== Proof.Spec.lean ====
/-
  The cost a query–target pair is charged by the matcher, as ONE function on the extended reals.

  For a query with class logits `x_c` and box `a = (cx, cy, w, h)`, and a target with class id `l` and box `b`:
    cost = ‖a − b‖₁ + (pos(σ(x_l)) − neg(σ(x_l))) + (1 − iou(a, b) − union(a, b) / hull(a, b)),
  with σ the logistic function, pos(p) = ¼ (1 − p)² (−log (p + ε)), neg(p) = ¾ p² (−log (1 − p + ε)), boxes read as
  corner pairs `c ∓ ½ s`, `inter` the area of the intersection rectangle, `hull` that of the smallest enclosing one.
  The literals are kept as the words the programs print; which extended real each denotes is only needed where a law
  needs it (`0`, `1`, finiteness), never their decimal value.
-/
import Idealize.ShloMosaic.PureOps.Ideal
import Idealize.ShloMosaic.Lib.ValueIdx

noncomputable section

namespace Cert.MatchCost

open Idealize.ShloMosaic Idealize.ShloMosaic.ValueIdx

/-! ## The literals -/

/-- `0.0` -/
abbrev w0 : EReal := Ideal.ofBits .f32 0x00000000#32
/-- `1.0` -/
abbrev w1 : EReal := Ideal.ofBits .f32 0x3F800000#32
/-- `2.0` -/
abbrev w2 : EReal := Ideal.ofBits .f32 0x40000000#32
/-- `0.5` -/
abbrev whalf : EReal := Ideal.ofBits .f32 0x3F000000#32
/-- `0.25`, the focal weight α -/
abbrev w025 : EReal := Ideal.ofBits .f32 0x3E800000#32
/-- `0.75`, 1 − α -/
abbrev w075 : EReal := Ideal.ofBits .f32 0x3F400000#32
/-- the f32 nearest `1e-8`, the ε under the logarithms -/
abbrev weps : EReal := Ideal.ofBits .f32 0x322BCC77#32

/-! ## The classification term -/

/-- ¾ p² (−log (1 − p + ε)) -/
def negTerm (p : EReal) : EReal := (w075 * (p * p)) * (w0 - Ideal.log ((w1 - p) + weps))
/-- ¼ (1 − p)² (−log (p + ε)) -/
def posTerm (p : EReal) : EReal := (w025 * ((w1 - p) * (w1 - p))) * (w0 - Ideal.log (p + weps))
/-- The focal cost of a logit: pos − neg at its probability. -/
def classCost (x : EReal) : EReal := posTerm (Ideal.logistic x) - negTerm (Ideal.logistic x)

/-! ## The box terms; a box is `(cx, cy, w, h)` -/

/-- |x| on the extended reals. -/
def absE (x : EReal) : EReal := max x (-x)
/-- The L1 distance of two boxes, summed left to right. -/
def l1 (a b : Fin 4 → EReal) : EReal := ((absE (a 0 - b 0) + absE (a 1 - b 1)) + absE (a 2 - b 2)) + absE (a 3 - b 3)
/-- left edge -/
def xlo (a : Fin 4 → EReal) : EReal := a 0 - whalf * a 2
/-- top edge -/
def ylo (a : Fin 4 → EReal) : EReal := a 1 - whalf * a 3
/-- right edge -/
def xhi (a : Fin 4 → EReal) : EReal := a 0 + whalf * a 2
/-- bottom edge -/
def yhi (a : Fin 4 → EReal) : EReal := a 1 + whalf * a 3
/-- width × height from the corners -/
def area (a : Fin 4 → EReal) : EReal := (xhi a - xlo a) * (yhi a - ylo a)
/-- the intersection rectangle's area -/
def inter (a b : Fin 4 → EReal) : EReal :=
  max w0 (min (xhi a) (xhi b) - max (xlo a) (xlo b)) * max w0 (min (yhi a) (yhi b) - max (ylo a) (ylo b))
/-- area a + area b − inter -/
def union (a b : Fin 4 → EReal) : EReal := (area a + area b) - inter a b
/-- the enclosing rectangle's area -/
def hull (a b : Fin 4 → EReal) : EReal :=
  max w0 (max (xhi a) (xhi b) - min (xlo a) (xlo b)) * max w0 (max (yhi a) (yhi b) - min (ylo a) (ylo b))
/-- 1 − iou − union / hull, which is −giou where everything is finite and nonzero. -/
def giouCost (a b : Fin 4 → EReal) : EReal :=
  (w1 - Ideal.div (inter a b) (union a b)) - Ideal.div (union a b) (hull a b)

/-- The whole cost of a pair. -/
def cost (x : EReal) (a b : Fin 4 → EReal) : EReal := (l1 a b + classCost x) + giouCost a b

/-! ## The cost matrix -/

/-- The class a label word selects: read signed, capped at the last class. (For a nonnegative label.) -/
def clsOf (l : BitVec 32) : Fin 91 := ⟨min l.toInt.toNat 90, by omega⟩

/-- The cost matrix over flat queries: entry `(n, t)` is the cost of query `n` against target `t`. -/
def costMatrix (lg : (⟨2, ![14400, 91]⟩ : Shape).Idx → EReal) (bx : (⟨2, ![14400, 4]⟩ : Shape).Idx → EReal)
    (lab : (⟨1, ![1600]⟩ : Shape).Idx → BitVec 32) (tb : (⟨2, ![1600, 4]⟩ : Shape).Idx → EReal) :
    (⟨2, ![14400, 1600]⟩ : Shape).Idx → EReal :=
  fun j => cost (lg (ix2 (j 0) (clsOf (lab (ix1 (j 1)))))) (fun k => bx (ix2 (j 0) k)) (fun k => tb (ix2 (j 1) k))

/-! ## The hypotheses the laws need -/

/-- Every entry is a real number. -/
def IsReal {s : Shape} (v : s.Idx → EReal) : Prop := ∀ i, ∃ r : ℝ, v i = (r : EReal)
/-- Every label is nonnegative as a signed word. -/
def NonNeg {s : Shape} (l : s.Idx → BitVec 32) : Prop := ∀ j, 0 ≤ (l j).toInt

end Cert.MatchCost

end
-- ==== Proof.PreFacts.lean ====
/-
  What the precondition says of the four argument arrays: every entry of the three float arrays is a real number
  (|x| < +∞ on the extended reals excludes both infinities), and every label word is nonnegative read signed.
  The printed predicate is a conjunction of four `all`-reductions; each is read back element by element.
-/
import proofs.«412521_j19782619365959_3_alg».proof.Pre_finite_inputs
import proofs.«412521_j19782619365959_3_alg».proof.Proof.Spec
import Idealize.ShloMosaic.Lib.ReduceAll

noncomputable section

namespace Cert.MatchCost.PreFacts

open Idealize.ShloMosaic Idealize.ShloMosaic.ValueIdx Cert.MatchCost Cert.Pre_finite_inputs

/-- The scalar shape has one index. -/
instance : Subsingleton S_.Idx := ⟨fun a b => funext fun d => d.elim0⟩

/-- The pattern of +∞ denotes the top element. -/
theorem inf_word : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => exact absurd h (by simp [Ideal.cmp])
  | coe r => exact ⟨r, rfl⟩
  | top => exact absurd h (by simp [Ideal.cmp])

/-- A word that compares ≥ 0 signed has a nonnegative signed value. -/
theorem nonneg_of_sge (w : BitVec 32) (h : IntOp.cmpi .sge w 0#32 = 1#1) : 0 ≤ w.toInt := by
  have hb : (0#32 : BitVec 32).sle w = true := by
    cases hc : (0#32 : BitVec 32).sle w
    · exfalso
      have h' : BitVec.ofBool ((0#32 : BitVec 32).sle w) = 1#1 := h
      rw [hc] at h'
      exact absurd h' (by decide)
    · rfl
  simpa [BitVec.sle] using hb

variable [Cert.Pre_finite_inputs.Facts]

/-- THE PRECONDITION READ BACK: the float arrays hold reals, the labels are nonnegative. -/
theorem decode (a0 : FVec Ideal S16x900x91 .f32) (a1 : FVec Ideal S16x900x4 .f32) (a2 : IVec S1600 32)
    (a3 : FVec Ideal S1600x4 .f32) (h : fn (F := Ideal) a0 a1 a2 a3 = fun _ => 1#1) :
    IsReal a0 ∧ IsReal a1 ∧ NonNeg a2 ∧ IsReal a3 := by
  have e := congrFun h ix0
  dsimp only [fn, fn_part1] at e
  obtain ⟨e123, e4⟩ := IntOp.andi_eq_one.1 e
  obtain ⟨e12, e3⟩ := IntOp.andi_eq_one.1 e123
  obtain ⟨e1, e2⟩ := IntOp.andi_eq_one.1 e12
  refine ⟨fun i => ?_, fun i => ?_, fun j => ?_, fun i => ?_⟩
  · exact real_of_abs_lt _ (Host.reduce_andi_all _ _ _ _ _ e1 i)
  · exact real_of_abs_lt _ (Host.reduce_andi_all _ _ _ _ _ e2 i)
  · exact nonneg_of_sge _ (Host.reduce_andi_all _ _ _ _ _ e4 j)
  · exact real_of_abs_lt _ (Host.reduce_andi_all _ _ _ _ _ e3 i)

end Cert.MatchCost.PreFacts

end
-- ==== Proof.Laws.lean ====
/-
  The laws of extended-real arithmetic under the matcher's cost.

  The literals: `0`, `1`, `2` as numbers; the focal weights and the half as finite reals; ε as a positive real.
  A contraction against an indicator row picks one term, and its two correction terms vanish on finite entries; a sum
  from `0` over four coordinates is the left-to-right sum; a unit weight is no weight.
  The focal cost of a finite logit is finite: its probability `p` lies strictly inside `(0, 1)`, so both logarithms
  are of positive reals. Spelled with a power `· ^ 2`, a negation `-log` and the quotient `1 / (1 + e⁻ˣ)`, it is the same
  number.
  The overlap cost, spelled `-(I/U - (H - U)/H)`, is `(1 - I/U) - U/H` for all finite `I`, `U`, `H`: off zero by
  `(H - U)/H = 1 - U/H`; where `U` or `H` is `0` a quotient is an infinity, and both sides are the same infinity by the
  conventions `⊤ + ⊥ = ⊥`, `-⊥ = ⊤`.
-/
import proofs.«412521_j19782619365959_3_alg».proof.Proof.Spec
import Mathlib.Algebra.BigOperators.Fin
import Mathlib.Tactic.FieldSimp
import Mathlib.Tactic.Ring
import Mathlib.Tactic.Positivity
import Mathlib.Tactic.Linarith

noncomputable section

namespace Cert.MatchCost

open Idealize.ShloMosaic

/-! ## The literals as numbers -/

/-- The word of `0.0` denotes `0`. -/
theorem w0_eq : w0 = 0 := by
  simp [Ideal.ofBits, Ideal.ieee]

/-- The word of `1.0` denotes `1`. -/
theorem w1_eq : w1 = 1 := by
  simp [Ideal.ofBits, Ideal.ieee, -EReal.coe_mul]; norm_num

/-! ## The total: unit weights -/

/-- Each of the three terms is weighted by `1`. -/
theorem ref_total_eq (x y z : EReal) : (w1 * x + w1 * y) + w1 * z = (x + y) + z := by
  rw [w1_eq, one_mul, one_mul, one_mul]

/-! ## The L1 term -/

/-- A sum that starts from `0` and runs over the four coordinates is the left-to-right sum of the four. -/
theorem ref_l1_eq (a b : Fin 4 → EReal) : w0 + ∑ k : Fin 4, absE (a k - b k) = l1 a b := by
  rw [w0_eq, zero_add, Fin.sum_univ_four, l1]

/-! ## The contraction against an indicator row -/

/-- A finite number minus itself is `0`. -/
theorem sub_self_of_real {v : EReal} (h : ∃ r : ℝ, v = (r : EReal)) : v - v = 0 := by
  obtain ⟨r, rfl⟩ := h
  rw [← EReal.coe_sub, sub_self, EReal.coe_zero]

/-- Against the indicator row of `l`, the contraction of finite entries is the entry at `l`; the two correction
    contractions, of `d - d` and of `(d - d) - (d - d)`, are contractions of `0`. -/
theorem onehot_contract (d oh : Fin 91 → EReal) (l : Fin 91) (hd : ∀ k, ∃ r : ℝ, d k = (r : EReal))
    (hoh : ∀ k, oh k = if k = l then 1 else 0) :
    ((w0 + ∑ k, d k * oh k) + (w0 + ∑ k, (d k - d k) * oh k))
      + (w0 + ∑ k, ((d k - d k) - (d k - d k)) * oh k) = d l := by
  have h0 : ∀ k, d k - d k = 0 := fun k => sub_self_of_real (hd k)
  have h1 : ∑ k, d k * oh k = d l := by
    simp only [hoh, mul_ite, mul_one, mul_zero]
    rw [Finset.sum_ite_eq' Finset.univ l, if_pos (Finset.mem_univ l)]
  have h2 : ∑ k, (d k - d k) * oh k = 0 := by
    simp only [h0, zero_mul, Finset.sum_const_zero]
  have h3 : ∑ k, ((d k - d k) - (d k - d k)) * oh k = 0 := by
    simp only [h0, sub_zero, zero_mul, Finset.sum_const_zero]
  rw [h1, h2, h3, w0_eq, zero_add, zero_add, add_zero, add_zero]

/-! ## The other literals: finite, and ε positive -/

/-- The word of `2.0` denotes `2`. -/
theorem w2_eq : w2 = ((2 : ℝ) : EReal) := by
  simp [Ideal.ofBits, Ideal.ieee, -EReal.coe_mul]; norm_num

/-- The word of `0.5` denotes a finite real. -/
theorem whalf_real : ∃ h : ℝ, whalf = (h : EReal) :=
  ⟨1 / 2, by simp [Ideal.ofBits, Ideal.ieee, -EReal.coe_mul]; norm_num⟩

/-- The word of `0.25` denotes a finite real. -/
theorem w025_real : ∃ c : ℝ, w025 = (c : EReal) :=
  ⟨1 / 4, by simp [Ideal.ofBits, Ideal.ieee, -EReal.coe_mul]; norm_num⟩

/-- The word of `0.75` denotes a finite real. -/
theorem w075_real : ∃ c : ℝ, w075 = (c : EReal) :=
  ⟨3 / 4, by simp [Ideal.ofBits, Ideal.ieee, -EReal.coe_mul]; norm_num⟩

/-- The word of ε denotes a positive real. -/
theorem weps_pos : ∃ e : ℝ, 0 < e ∧ weps = (e : EReal) := by
  simp [Ideal.ofBits, Ideal.ieee, -EReal.coe_mul]

/-! ## The classification term is finite on a finite logit -/

/-- The logistic function of a real lies strictly between `0` and `1`. -/
theorem logistic_real (x : ℝ) : ∃ p : ℝ, 0 < p ∧ p < 1 ∧ Ideal.logistic (x : EReal) = (p : EReal) := by
  have he : 0 < Real.exp (-x) := Real.exp_pos (-x)
  refine ⟨(1 + Real.exp (-x))⁻¹, ?_, ?_, Ideal.logistic_coe x⟩
  · positivity
  · exact inv_lt_one_of_one_lt₀ (by linarith)

/-- The logarithm of a positive real is the real logarithm. -/
theorem log_coe_pos {r : ℝ} (h : 0 < r) : Ideal.log (r : EReal) = (Real.log r : EReal) := by
  rw [Ideal.log_coe, if_neg (not_le.mpr h)]

/-- `1 - p` at a real `p`. -/
theorem w1_sub_coe (p : ℝ) : w1 - (p : EReal) = ((1 - p : ℝ) : EReal) := by
  rw [w1_eq, ← EReal.coe_one, ← EReal.coe_sub]

/-- `0 - v` is `-v`. -/
theorem w0_sub (v : EReal) : w0 - v = -v := by
  rw [w0_eq, zero_sub]

/-- The positive term is finite at a probability above `0`: its logarithm is of `p + ε > 0`. -/
theorem posTerm_real {p : ℝ} (hp : 0 < p) : ∃ r : ℝ, posTerm (p : EReal) = (r : EReal) := by
  obtain ⟨c, hc⟩ := w025_real
  obtain ⟨e, he0, he⟩ := weps_pos
  refine ⟨(c * ((1 - p) * (1 - p))) * (-Real.log (p + e)), ?_⟩
  rw [posTerm, w0_sub, w1_sub_coe, hc, he, ← EReal.coe_add, log_coe_pos (add_pos hp he0), ← EReal.coe_neg,
    ← EReal.coe_mul, ← EReal.coe_mul, ← EReal.coe_mul]

/-- The negative term is finite at a probability below `1`: its logarithm is of `(1 - p) + ε > 0`. -/
theorem negTerm_real {p : ℝ} (hp : p < 1) : ∃ r : ℝ, negTerm (p : EReal) = (r : EReal) := by
  obtain ⟨c, hc⟩ := w075_real
  obtain ⟨e, he0, he⟩ := weps_pos
  refine ⟨(c * (p * p)) * (-Real.log ((1 - p) + e)), ?_⟩
  rw [negTerm, w0_sub, w1_sub_coe, hc, he, ← EReal.coe_add, log_coe_pos (add_pos (sub_pos.mpr hp) he0),
    ← EReal.coe_neg, ← EReal.coe_mul, ← EReal.coe_mul, ← EReal.coe_mul]

/-- The focal cost of a finite logit is a finite real. -/
theorem classCost_isReal (x : ℝ) : ∃ r : ℝ, classCost (x : EReal) = (r : EReal) := by
  obtain ⟨p, hp0, hp1, hp⟩ := logistic_real x
  obtain ⟨r₁, h₁⟩ := posTerm_real hp0
  obtain ⟨r₂, h₂⟩ := negTerm_real hp1
  exact ⟨r₁ - r₂, by rw [classCost, hp, h₁, h₂, ← EReal.coe_sub]⟩

/-! ## The classification term spelled with a power and a quotient -/

/-- A real to the power `2` is its square. -/
theorem pow_w2 (r : ℝ) : Ideal.pow (r : EReal) w2 = (r : EReal) * (r : EReal) := by
  rw [w2_eq, Ideal.pow_coe_coe, ← EReal.coe_mul, Real.rpow_eq_pow, Real.rpow_two, sq]

/-- The focal cost with `(1 - p) ^ 2`, `p ^ 2`, `-log` and `p = 1 / (1 + e⁻ˣ)` is the focal cost. -/
theorem ref_class_eq (x : ℝ) :
    (w025 * Ideal.pow (w1 - Ideal.div w1 (w1 + Ideal.exp (-(x : EReal)))) w2)
          * (-(Ideal.log (Ideal.div w1 (w1 + Ideal.exp (-(x : EReal))) + weps)))
        - (w075 * Ideal.pow (Ideal.div w1 (w1 + Ideal.exp (-(x : EReal)))) w2)
          * (-(Ideal.log ((w1 - Ideal.div w1 (w1 + Ideal.exp (-(x : EReal)))) + weps)))
      = classCost (x : EReal) := by
  have hD : Ideal.div w1 (w1 + Ideal.exp (-(x : EReal))) = Ideal.logistic (x : EReal) := by
    rw [w1_eq]; rfl
  obtain ⟨p, -, -, hp⟩ := logistic_real x
  rw [hD, classCost, posTerm, negTerm, hp, w0_sub, w0_sub, w1_sub_coe, pow_w2, pow_w2]

/-! ## The overlap term -/

/-- The finite extended reals. -/
def IsR (v : EReal) : Prop := ∃ r : ℝ, v = (r : EReal)

theorem IsR.coe (r : ℝ) : IsR (r : EReal) := ⟨r, rfl⟩
theorem IsR.add {u v : EReal} (hu : IsR u) (hv : IsR v) : IsR (u + v) := by
  obtain ⟨r, rfl⟩ := hu; obtain ⟨s, rfl⟩ := hv; exact ⟨r + s, (EReal.coe_add r s).symm⟩
theorem IsR.sub {u v : EReal} (hu : IsR u) (hv : IsR v) : IsR (u - v) := by
  obtain ⟨r, rfl⟩ := hu; obtain ⟨s, rfl⟩ := hv; exact ⟨r - s, (EReal.coe_sub r s).symm⟩
theorem IsR.mul {u v : EReal} (hu : IsR u) (hv : IsR v) : IsR (u * v) := by
  obtain ⟨r, rfl⟩ := hu; obtain ⟨s, rfl⟩ := hv; exact ⟨r * s, (EReal.coe_mul r s).symm⟩
theorem IsR.max {u v : EReal} (hu : IsR u) (hv : IsR v) : IsR (max u v) := by
  rcases le_total u v with h | h
  · rwa [max_eq_right h]
  · rwa [max_eq_left h]
theorem IsR.min {u v : EReal} (hu : IsR u) (hv : IsR v) : IsR (min u v) := by
  rcases le_total u v with h | h
  · rwa [min_eq_left h]
  · rwa [min_eq_right h]
theorem IsR.w0 : IsR w0 := ⟨0, w0_eq⟩
theorem IsR.whalf : IsR whalf := whalf_real

section Boxes
variable (a b : Fin 4 → ℝ)

theorem xlo_real : IsR (xlo (fun k => (a k : EReal))) := (IsR.coe _).sub (IsR.whalf.mul (IsR.coe _))
theorem ylo_real : IsR (ylo (fun k => (a k : EReal))) := (IsR.coe _).sub (IsR.whalf.mul (IsR.coe _))
theorem xhi_real : IsR (xhi (fun k => (a k : EReal))) := (IsR.coe _).add (IsR.whalf.mul (IsR.coe _))
theorem yhi_real : IsR (yhi (fun k => (a k : EReal))) := (IsR.coe _).add (IsR.whalf.mul (IsR.coe _))

/-- The area of a finite box is finite. -/
theorem area_real : IsR (area (fun k => (a k : EReal))) :=
  ((xhi_real a).sub (xlo_real a)).mul ((yhi_real a).sub (ylo_real a))

/-- The intersection area of finite boxes is finite. -/
theorem inter_real : IsR (inter (fun k => (a k : EReal)) (fun k => (b k : EReal))) :=
  (IsR.w0.max (((xhi_real a).min (xhi_real b)).sub ((xlo_real a).max (xlo_real b)))).mul
    (IsR.w0.max (((yhi_real a).min (yhi_real b)).sub ((ylo_real a).max (ylo_real b))))

/-- The union area of finite boxes is finite. -/
theorem union_real : IsR (union (fun k => (a k : EReal)) (fun k => (b k : EReal))) :=
  ((area_real a).add (area_real b)).sub (inter_real a b)

/-- The enclosing area of finite boxes is finite. -/
theorem hull_real : IsR (hull (fun k => (a k : EReal)) (fun k => (b k : EReal))) :=
  (IsR.w0.max (((xhi_real a).max (xhi_real b)).sub ((xlo_real a).min (xlo_real b)))).mul
    (IsR.w0.max (((yhi_real a).max (yhi_real b)).sub ((ylo_real a).min (ylo_real b))))

end Boxes

/-- A quotient by `0` of a positive number is `⊤`. -/
theorem div_zero_of_pos {x : EReal} (h : 0 < x) : Ideal.div x 0 = ⊤ := by
  rw [Ideal.div, if_pos rfl, if_pos h]

/-- A quotient by `0` of a number that is not positive is `⊥`. -/
theorem div_zero_of_not_pos {x : EReal} (h : ¬ 0 < x) : Ideal.div x 0 = ⊥ := by
  rw [Ideal.div, if_pos rfl, if_neg h]

/-- A quotient of reals by a nonzero real is the real quotient. -/
theorem div_real (x : ℝ) {y : ℝ} (hy : y ≠ 0) : Ideal.div (x : EReal) (y : EReal) = ((x / y : ℝ) : EReal) := by
  rw [Ideal.div_coe hy, ← EReal.coe_mul, mul_one_div]

/-- `-(I/U - (H - U)/H) = (1 - I/U) - U/H` at all finite `I`, `U`, `H`, the zeros of `U` and `H` included. -/
theorem giou_law (I U H : ℝ) :
    -(Ideal.div (I : EReal) (U : EReal) - Ideal.div ((H : EReal) - (U : EReal)) (H : EReal))
      = (((1 : ℝ) : EReal) - Ideal.div (I : EReal) (U : EReal)) - Ideal.div (U : EReal) (H : EReal) := by
  rw [← EReal.coe_sub]
  by_cases hU : U = 0
  · subst hU
    by_cases hH : H = 0
    · -- both zero: every quotient is an infinity; `0 / 0 = ⊥`
      subst hH
      rw [sub_zero, EReal.coe_zero, div_zero_of_not_pos (lt_irrefl (0 : EReal))]
      by_cases hI : (0 : EReal) < (I : EReal)
      · rw [div_zero_of_pos hI, EReal.top_sub_bot, EReal.neg_top, EReal.sub_top, EReal.bot_sub]
      · rw [div_zero_of_not_pos hI, EReal.bot_sub, EReal.neg_bot, EReal.coe_sub_bot, EReal.top_sub_bot]
    · -- `U = 0`, `H ≠ 0`: `(H - 0)/H = 1`, `0/H = 0`, `I/0` an infinity
      rw [sub_zero, div_real H hH, div_real 0 hH, div_self hH, zero_div]
      rw [EReal.coe_zero]
      by_cases hI : (0 : EReal) < (I : EReal)
      · rw [div_zero_of_pos hI, EReal.top_sub_coe, EReal.neg_top, EReal.sub_top, EReal.bot_sub]
      · rw [div_zero_of_not_pos hI, EReal.bot_sub, EReal.neg_bot, EReal.coe_sub_bot, sub_zero]
  · by_cases hH : H = 0
    · -- `H = 0`, `U ≠ 0`: `I/U` is real; `(0 - U)/0` and `U/0` are opposite infinities
      subst hH
      rw [div_real I hU, EReal.coe_zero]
      rcases lt_or_gt_of_ne hU with hneg | hpos
      · have h1 : (0 : EReal) < ((0 - U : ℝ) : EReal) := EReal.coe_pos.mpr (by linarith)
        have h2 : ¬ (0 : EReal) < (U : EReal) := not_lt.mpr (EReal.coe_nonpos.mpr hneg.le)
        rw [div_zero_of_pos h1, div_zero_of_not_pos h2, EReal.sub_top, EReal.neg_bot, ← EReal.coe_sub,
          EReal.coe_sub_bot]
      · have h1 : ¬ (0 : EReal) < ((0 - U : ℝ) : EReal) :=
          not_lt.mpr (EReal.coe_nonpos.mpr (by linarith))
        have h2 : (0 : EReal) < (U : EReal) := EReal.coe_pos.mpr hpos
        rw [div_zero_of_not_pos h1, div_zero_of_pos h2, EReal.coe_sub_bot, EReal.neg_top, EReal.sub_top]
    · -- off zero: `(H - U)/H = 1 - U/H`
      rw [div_real I hU, div_real (H - U) hH, div_real U hH, ← EReal.coe_sub, ← EReal.coe_neg, ← EReal.coe_sub,
        ← EReal.coe_sub]
      congr 1
      field_simp
      ring

/-- The overlap cost spelled `-(iou - (hull - union) / hull)` is `(1 - iou) - union / hull` at finite boxes. -/
theorem ref_giou_eq (a b : Fin 4 → ℝ) :
    -(Ideal.div (inter (fun k => (a k : EReal)) (fun k => (b k : EReal)))
            (union (fun k => (a k : EReal)) (fun k => (b k : EReal)))
          - Ideal.div (hull (fun k => (a k : EReal)) (fun k => (b k : EReal))
              - union (fun k => (a k : EReal)) (fun k => (b k : EReal)))
            (hull (fun k => (a k : EReal)) (fun k => (b k : EReal))))
      = giouCost (fun k => (a k : EReal)) (fun k => (b k : EReal)) := by
  obtain ⟨I, hI⟩ := inter_real a b
  obtain ⟨V, hV⟩ := union_real a b
  obtain ⟨H, hH⟩ := hull_real a b
  rw [giouCost, hI, hV, hH, w1_eq, ← EReal.coe_one]
  exact giou_law I V H

end Cert.MatchCost

end
-- ==== Proof.KernelArray.lean ====
/-
  From the blocks of the cost kernel to its whole result.

  The kernel runs over a grid of 30 points. At point `t` it is handed rows `480 t … 480 t + 479` of the flat
  logits (all 91 columns) and of the flat query boxes (all 4 columns), together with the whole one-hot table and the
  whole transposed target boxes, and it writes rows `480 t … 480 t + 479` (all 1600 columns) of the flat cost matrix.
  Here: each input block read entry by entry as an entry of its array; the flat cost matrix, once every block of
  rows is known to be the matching rows of one function `G` of the arrays, is `G` (the thirty row blocks tile the
  14400 rows: row `r` lies in block `r / 480`); and the run, whose last step reshapes the flat matrix to
  batch × query × target.
-/
import proofs.«412521_j19782619365959_3_alg».proof.Proof.Spec
import proofs.«412521_j19782619365959_3_alg».proof.Proof.Gen.KernelIdeal.Frame
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx Cert.MatchCost
open Idealize.ShloMosaic.Pipeline (Dat)

variable (m : (ℓ : Loc nD τ sig) → Buf (Elt Ideal) ℓ) (ρ : Dev nD → PrngReg)

/-! ## Where each window's block sits -/

/-- The grid has thirty points. -/
theorem N_eq : cfg0.N = 30 := N_0

/-- Row `p` of block `t` is a row of the 14400. -/
theorem row_lt (t : Fin cfg0.N) (p : Fin 480) : t.val * 480 + p.val < 14400 := by
  have ht : t.val < 30 := Nat.lt_of_lt_of_eq t.isLt N_eq
  have hp := p.isLt
  omega

/-- The block indices over the grid: the row windows (logits, query boxes, result) sit at block row `t`, column
    block 0; the two tables sit at block (0, 0) at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks, entry by entry -/

/-- Entry `(p, k)` of the logits' block at point `t` is entry `(480 t + p, k)` of the flat logits. -/
theorem iblk0_apply (c : Dev nD) (t : Fin cfg0.N) (p : Fin 480) (k : Fin 91) :
    (iblk m c 0 t : S480x91.Idx → EReal) (ix2 p k)
      = (V m c main_v0 : S14400x91.Idx → EReal) (ix2 ⟨t.val * 480 + p.val, row_lt t p⟩ k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 480 + 1 * p.val = t.val * 480 + p.val; rw [e0]; omega
  | ⟨1, _⟩ => show win0_0.index t (1 : Fin 2) * 91 + 1 * k.val = k.val; rw [e1]; omega

/-- Entry `(p, k)` of the query boxes' block at point `t` is entry `(480 t + p, k)` of the flat boxes. -/
theorem iblk1_apply (c : Dev nD) (t : Fin cfg0.N) (p : Fin 480) (k : Fin 4) :
    (iblk m c 1 t : S480x4.Idx → EReal) (ix2 p k)
      = (V m c main_v1 : S14400x4.Idx → EReal) (ix2 ⟨t.val * 480 + p.val, row_lt t p⟩ k) := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 480 + 1 * p.val = t.val * 480 + p.val; rw [e0]; omega
  | ⟨1, _⟩ => show win0_1.index t (1 : Fin 2) * 4 + 1 * k.val = k.val; rw [e1]; omega

/-- The one-hot table's block is the whole table at every point. -/
theorem iblk2_apply (c : Dev nD) (t : Fin cfg0.N) (k : Fin 91) (q : Fin 1600) :
    (iblk m c 2 t : S91x1600.Idx → EReal) (ix2 k q)
      = (V m c main_v4 : S91x1600.Idx → EReal) (ix2 k q) := by
  obtain ⟨-, -, -, -, e0, e1, -⟩ := idx_facts t
  unfold iblk
  rw [View.read_apply]
  show V m c main_v4 _ = V m c main_v4 _
  congr 1
  funext a
  apply Fin.ext
  match a with
  | ⟨0, _⟩ => show win0_2.index t (0 : Fin 2) * 91 + 1 * k.val = k.val; rw [e0]; omega
  | ⟨1, _⟩ => show win0_2.index t (1 : Fin 2) * 1600 + 1 * q.val = q.val; rw [e1]; omega

/-- The transposed target boxes' block is the whole array at every point. -/
theorem iblk3_apply (c : Dev nD) (t : Fin cfg0.N) (k : Fin 4) (q : Fin 1600) :
    (iblk m c 3 t : S4x1600.Idx → EReal) (ix2 k q)
      = (V m c main_v5 : S4x1600.Idx → EReal) (ix2 k q) := by
  obtain ⟨-, -, -, -, -, -, e0, e1, -⟩ := idx_facts t
  unfold iblk
  rw [View.read_apply]
  show V m c main_v5 _ = V m c main_v5 _
  congr 1
  funext a
  apply Fin.ext
  match a with
  | ⟨0, _⟩ => show win0_3.index t (0 : Fin 2) * 4 + 1 * k.val = k.val; rw [e0]; omega
  | ⟨1, _⟩ => show win0_3.index t (1 : Fin 2) * 1600 + 1 * q.val = q.val; rw [e1]; omega

/-! ## From the blocks to the flat cost matrix -/

/-- An index of the flat matrix is in point `t`'s block iff each coordinate is in the block's range on its axis. -/
theorem mem_blk4 (t : Fin cfg0.N) (i : S14400x1600.Idx) :
    i ∈ ((cfg0.win 4).blk t).view.set ↔ ∀ a : Fin 2, win0_4.index t a * S480x1600.size a ≤ (i a).val ∧ (i a).val < win0_4.index t a * S480x1600.size a + S480x1600.size a := by
  show i ∈ ((View.whole main_v6).slice (win0_4.rect t)).set ↔ _
  rw [View.set_slice_whole, Rect.mem_set_unit]
  exact Iff.rfl

/-- A block of 480 rows whose entry `(p, q)` is `G` at row `480 t + p`, column `q`, is what the result window's
    block at point `t` reads of `G`. -/
theorem cut_eq_read (X : S480x1600.Idx → EReal) (G : S14400x1600.Idx → EReal) (t : Fin cfg0.N)
    (h : ∀ (p : Fin 480) (q : Fin 1600), X (ix2 p q) = G (ix2 ⟨t.val * 480 + p.val, row_lt t p⟩ q)) :
    (cfg0.win 4).cut (grid0.coords t) X = ((cfg0.win 4).blk t).view.read (Elt Ideal) G := by
  obtain ⟨-, -, -, -, -, -, -, -, e0, e1⟩ := idx_facts t
  funext j
  rw [View.read_apply]
  show X ((cfg0.win 4).xinj (grid0.coords t) j) = G (((cfg0.win 4).blk t).view.emb j)
  have hp : (j 0).val < 480 := (j 0).isLt
  have hq : (j 1).val < 1600 := (j 1).isLt
  have h1 : (cfg0.win 4).xinj (grid0.coords t) j = ix2 (⟨(j 0).val, hp⟩ : Fin 480) (⟨(j 1).val, hq⟩ : Fin 1600) := by
    funext a
    match a with
    | ⟨0, _⟩ => rfl
    | ⟨1, _⟩ => rfl
  have h2 : ((cfg0.win 4).blk t).view.emb j
      = ix2 (⟨t.val * 480 + (j 0).val, row_lt t ⟨(j 0).val, hp⟩⟩ : Fin 14400) (⟨(j 1).val, hq⟩ : Fin 1600) := by
    funext a
    apply Fin.ext
    match a with
    | ⟨0, _⟩ => show win0_4.index t (0 : Fin 2) * 480 + 1 * (j 0).val = t.val * 480 + (j 0).val; rw [e0]; omega
    | ⟨1, _⟩ => show win0_4.index t (1 : Fin 2) * 1600 + 1 * (j 1).val = (j 1).val; rw [e1]; omega
  rw [h1, h2]
  exact h _ _

/-- What point `t` writes back is block `t` of `G`, once the body's result on the point's input blocks is. -/
theorem flushed4_eq (c : Dev nD) (G : S14400x1600.Idx → EReal)
    (hblk : ∀ (t : Fin cfg0.N) (p : Fin 480) (q : Fin 1600),
      out0_4 (F := Ideal) (iblk m c 0 t) (iblk m c 1 t) (iblk m c 2 t) (iblk m c 3 t) (ix2 p q)
        = G (ix2 ⟨t.val * 480 + p.val, row_lt t p⟩ q))
    (t : Fin cfg0.N) :
    (dats m 0 c).flushed 4 t = ((cfg0.win 4).blk t).view.read (Elt Ideal) G := by
  show (cfg0.win 4).cut (grid0.coords t) ((dats m 0 c).after 4 t) = _
  rw [after0_4]
  exact cut_eq_read (out0_4 (F := Ideal) (iblk m c 0 t) (iblk m c 1 t) (iblk m c 2 t) (iblk m c 3 t)) G t (hblk t)

/-- Every entry of the flat matrix lies in some point's block: row `r` in that of point `r / 480`. -/
theorem covered4 (i : S14400x1600.Idx) :
    ∃ t : Fin cfg0.N, (cfg0.win 4).flush t = true ∧ i ∈ ((cfg0.win 4).blk t).view.set := by
  have hi0 : (i 0).val < 14400 := (i 0).isLt
  have hi1 : (i 1).val < 1600 := (i 1).isLt
  have ht : (i 0).val / 480 < cfg0.N := by rw [N_eq]; omega
  obtain ⟨-, -, -, -, -, -, -, -, e0, e1⟩ := idx_facts ⟨(i 0).val / 480, ht⟩
  refine ⟨⟨(i 0).val / 480, ht⟩, flush0_4 _, ?_⟩
  rw [mem_blk4]
  intro a
  match a with
  | ⟨0, _⟩ =>
    show win0_4.index ⟨(i 0).val / 480, ht⟩ (0 : Fin 2) * 480 ≤ (i 0).val ∧ (i 0).val < win0_4.index ⟨(i 0).val / 480, ht⟩ (0 : Fin 2) * 480 + 480
    rw [e0]; show (i 0).val / 480 * 480 ≤ (i 0).val ∧ (i 0).val < (i 0).val / 480 * 480 + 480; omega
  | ⟨1, _⟩ =>
    show win0_4.index ⟨(i 0).val / 480, ht⟩ (1 : Fin 2) * 1600 ≤ (i 1).val ∧ (i 1).val < win0_4.index ⟨(i 0).val / 480, ht⟩ (1 : Fin 2) * 1600 + 1600
    rw [e1]; omega

/-- THE FLAT COST MATRIX after the run is `G`, once every point's block is the matching rows of `G`. -/
theorem arrAt_of_blocks (c : Dev nD) (G : S14400x1600.Idx → EReal)
    (hblk : ∀ (t : Fin cfg0.N) (p : Fin 480) (q : Fin 1600),
      out0_4 (F := Ideal) (iblk m c 0 t) (iblk m c 1 t) (iblk m c 2 t) (iblk m c 3 t) (ix2 p q)
        = G (ix2 ⟨t.val * 480 + p.val, row_lt t p⟩ q)) :
    (dats m 0 c).arrAt 4 cfg0.N = G :=
  (dats m 0 c).arrAt_eq_of_cover 4 G (fun t _ => flushed4_eq m c G hblk t) covered4

/-! ## The reshape after the region, and the run -/

/-- The result buffer after the one host operation that follows the region: the flat cost matrix, as the pipeline
    left it, reshaped to batch × query × target. -/
theorem tail_main_v7 (c : Dev nD) :
    (Pipeline.afterTail₀ cfgs (dats m) 0 (V0 m) [hostOps1] c main_v7 : S16x900x1600.Idx → EReal)
      = shapeCast S16x900x1600 ((dats m 0 c).arrAt 4 cfg0.N : S14400x1600.Idx → EReal) shapeCasts_S14400x1600_S16x900x1600 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = (dats m 0 c).arrAt 4 cfg0.N :=
    Pipeline.withArrays_arr spec0 launch0.win.arr_inj c _ _ 4
  rw [e]
  rfl

/-- THE RUN: every weakly fair execution of the program ends with the result buffer at the reshaped `G`, for any `G`
    the flat cost matrix is known to be, and with the four arguments as launched. -/
theorem run_value (G : Dev nD → S14400x1600.Idx → EReal) (hG : ∀ c, (dats m 0 c).arrAt 4 cfg0.N = G c) :
    θ_run (defs (F := Ideal)) (onTc (τ := τ) (main (F := Ideal))) ⟨m, fun _ => 0, ρ⟩ (fun r => ∀ c : Dev nD,
      r.2.mem ((c.tc : Thread nD τ).loc main_v7) = shapeCast S16x900x1600 (G c) shapeCasts_S14400x1600_S16x900x1600
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).2 main_v7 (Pipeline.mem_restRefs_of main_v7 (by decide) (by decide))).trans (tail_main_v7 m c)).trans
        (congrArg (fun X : S14400x1600.Idx → EReal => shapeCast S16x900x1600 X shapeCasts_S14400x1600_S16x900x1600) (hG c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ArrayValue

end
-- ==== Proof.KernelPayload.lean ====
/-
  The cost kernel's body at one entry of its output block.

  A block pairs 480 queries with all 1600 targets. Entry (p, q) of what the body stores is a sum of three terms.
  The first is the L1 distance of query p's box and target q's box. The second is the focal class cost of query p's
  91 logits contracted with column q of the one-hot table; the body takes it in three passes (the cost, what is left
  of it after one narrowing, and what is left of that), each a sum over the 91 classes started from the zero word.
  The third is the overlap term of the two boxes read as corner pairs. Every layout step reads one coordinate of a
  box: a slice takes one column of the query boxes or one row of the target boxes, a broadcast repeats that column
  along the targets or that row along the queries. The pointwise arithmetic is the extended reals', so each piece is
  the specification's function of the logit or of the two boxes, with the same literals in the same places.
-/
import proofs.«412521_j19782619365959_3_alg».proof.Proof.Spec
import proofs.«412521_j19782619365959_3_alg».proof.Proof.Gen.KernelIdeal.Frame
import Idealize.ShloMosaic.Lib.ValueLayout
import Idealize.ShloMosaic.PureOps.Ideal.Laws

noncomputable section

namespace Cert.KernelIdeal.PayloadValue

open Idealize.ShloMosaic Idealize.ShloMosaic.ValueIdx Cert.MatchCost Cert.KernelIdeal Cert.KernelIdeal.Gen

/-! ## Pointwise operations the index passes through -/

section Pointwise
variable {s : Shape} {φ : FTy}

/-- A logistic at an index is the logistic of the element. -/
theorem logistic_apply (a : FVec Ideal s φ) (i : s.Idx) : logistic a i = Ideal.logistic (a i) := rfl
/-- A logarithm at an index is the logarithm of the element. -/
theorem log_apply (a : FVec Ideal s φ) (i : s.Idx) : log a i = Ideal.log (a i) := rfl
/-- An absolute value at an index is the larger of the element and its negative. -/
theorem absf_apply (a : FVec Ideal s φ) (i : s.Idx) : absf a i = absE (a i) := rfl

end Pointwise

/-! ## One column repeated along the columns, one row along the rows -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column over the block: entry `(p, q)` is the column's entry `p`. -/
theorem col_read (v : FVec Ideal S480x1 .f32) (p : Fin 480) (q : Fin 1600) :
    broadcastTo S480x1600 v broadcasts_S480x1_S480x1600 (ix2 p q) = v (ix2 p (0 : Fin 1)) :=
  broadcastTo_a1_ab_apply v broadcasts_S480x1_S480x1600 p q

/-- A row over the block: entry `(p, q)` is the row's entry `q`. -/
theorem row_read (v : FVec Ideal S1x1600 .f32) (p : Fin 480) (q : Fin 1600) :
    broadcastTo S480x1600 v broadcasts_S1x1600_S480x1600 (ix2 p q) = v (ix2 (0 : Fin 1) q) :=
  broadcastTo_1b_ab_apply v broadcasts_S1x1600_S480x1600 p q

/-! ## The two box blocks and their coordinates -/

section Boxes
variable (A : FVec Ideal S480x4 .f32) (B : Vec Ideal S4x1600 .f32) (p : Fin 480) (q : Fin 1600)

/-- The query boxes as loaded. -/
theorem pay2_eq (A : Vec Ideal S480x4 .f32) : k0_pay2 A = A := by
  unfold k0_pay2; exact shapeCast_self A _
/-- The target boxes as loaded. -/
theorem pay3_eq : k0_pay3 B = B := by
  unfold k0_pay3; exact shapeCast_self B _

/-- The centre-x column of the query boxes. -/
theorem pay4_apply : k0_pay4 A (ix2 p (0 : Fin 1)) = A (ix2 p 0) := by
  unfold k0_pay4; exact slice2_axis1_apply 0 A slices_S480x4_o0_0_S480x1 p 0 0 rfl
/-- The centre-y column. -/
theorem pay5_apply : k0_pay5 A (ix2 p (0 : Fin 1)) = A (ix2 p 1) := by
  unfold k0_pay5; exact slice2_axis1_apply 1 A slices_S480x4_o0_1_S480x1 p 0 1 rfl
/-- The width column. -/
theorem pay6_apply : k0_pay6 A (ix2 p (0 : Fin 1)) = A (ix2 p 2) := by
  unfold k0_pay6; exact slice2_axis1_apply 2 A slices_S480x4_o0_2_S480x1 p 0 2 rfl
/-- The height column. -/
theorem pay7_apply : k0_pay7 A (ix2 p (0 : Fin 1)) = A (ix2 p 3) := by
  unfold k0_pay7; exact slice2_axis1_apply 3 A slices_S480x4_o0_3_S480x1 p 0 3 rfl

/-- The centre-x row of the target boxes. -/
theorem pay8_apply : k0_pay8 B (ix2 (0 : Fin 1) q) = B (ix2 0 q) := by
  unfold k0_pay8; rw [pay3_eq]; exact slice2_axis0_apply 0 B slices_S4x1600_o0_0_S1x1600 0 q 0 rfl
/-- The centre-y row. -/
theorem pay9_apply : k0_pay9 B (ix2 (0 : Fin 1) q) = B (ix2 1 q) := by
  unfold k0_pay9; rw [pay3_eq]; exact slice2_axis0_apply 1 B slices_S4x1600_o1_0_S1x1600 0 q 1 rfl
/-- The width row. -/
theorem pay10_apply : k0_pay10 B (ix2 (0 : Fin 1) q) = B (ix2 2 q) := by
  unfold k0_pay10; rw [pay3_eq]; exact slice2_axis0_apply 2 B slices_S4x1600_o2_0_S1x1600 0 q 2 rfl
/-- The height row. -/
theorem pay11_apply : k0_pay11 B (ix2 (0 : Fin 1) q) = B (ix2 3 q) := by
  unfold k0_pay11; rw [pay3_eq]; exact slice2_axis0_apply 3 B slices_S4x1600_o3_0_S1x1600 0 q 3 rfl

/-- The query box's left edge. -/
theorem pay13_apply : k0_pay13 A (ix2 p (0 : Fin 1)) = xlo (fun k => A (ix2 p k)) := by
  unfold k0_pay13; simp only [subf_apply, mulf_apply, broadcast_apply, pay4_apply, pay6_apply]; rfl
/-- Its top edge. -/
theorem pay14_apply : k0_pay14 A (ix2 p (0 : Fin 1)) = ylo (fun k => A (ix2 p k)) := by
  unfold k0_pay14; simp only [subf_apply, mulf_apply, broadcast_apply, pay5_apply, pay7_apply]; rfl
/-- Its right edge. -/
theorem pay15_apply : k0_pay15 A (ix2 p (0 : Fin 1)) = xhi (fun k => A (ix2 p k)) := by
  unfold k0_pay15; simp only [addf_apply, mulf_apply, broadcast_apply, pay4_apply, pay6_apply]; rfl
/-- Its bottom edge. -/
theorem pay16_apply : k0_pay16 A (ix2 p (0 : Fin 1)) = yhi (fun k => A (ix2 p k)) := by
  unfold k0_pay16; simp only [addf_apply, mulf_apply, broadcast_apply, pay5_apply, pay7_apply]; rfl

/-- The target box's left edge. -/
theorem pay17_apply : k0_pay17 B (ix2 (0 : Fin 1) q) = xlo (fun k => B (ix2 k q)) := by
  unfold k0_pay17; simp only [subf_apply, mulf_apply, broadcast_apply, pay8_apply, pay10_apply]; rfl
/-- Its top edge. -/
theorem pay18_apply : k0_pay18 B (ix2 (0 : Fin 1) q) = ylo (fun k => B (ix2 k q)) := by
  unfold k0_pay18; simp only [subf_apply, mulf_apply, broadcast_apply, pay9_apply, pay11_apply]; rfl
/-- Its right edge. -/
theorem pay19_apply : k0_pay19 B (ix2 (0 : Fin 1) q) = xhi (fun k => B (ix2 k q)) := by
  unfold k0_pay19; simp only [addf_apply, mulf_apply, broadcast_apply, pay8_apply, pay10_apply]; rfl
/-- Its bottom edge. -/
theorem pay20_apply : k0_pay20 B (ix2 (0 : Fin 1) q) = yhi (fun k => B (ix2 k q)) := by
  unfold k0_pay20; simp only [addf_apply, mulf_apply, broadcast_apply, pay9_apply, pay11_apply]; rfl

/-- The L1 distance of the two boxes, coordinate by coordinate from the left. -/
theorem pay12_apply : k0_pay12 A B (ix2 p q) = l1 (fun k => A (ix2 p k)) (fun k => B (ix2 k q)) := by
  unfold k0_pay12
  simp only [addf_apply, subf_apply, absf_apply, col_read, row_read, pay4_apply, pay5_apply, pay6_apply, pay7_apply,
    pay8_apply, pay9_apply, pay10_apply, pay11_apply]
  rfl

end Boxes

/-! ## A product of a logit block with the one-hot table, at an entry -/

/-- The left operand's row is the result's row. -/
theorem lhs_axis0 (j : S480x1600.Idx) (k : dot_S480x91_S91x1600_S480x1600_1_0_0_1_n_n.contr.Idx) :
    (dot_S480x91_S91x1600_S480x1600_1_0_0_1_n_n.lhsIdx j k 0).val = (j 0).val := rfl
/-- The left operand's column is the class summed over. -/
theorem lhs_axis1 (j : S480x1600.Idx) (k : dot_S480x91_S91x1600_S480x1600_1_0_0_1_n_n.contr.Idx) :
    (dot_S480x91_S91x1600_S480x1600_1_0_0_1_n_n.lhsIdx j k 1).val = (k ⟨0, by decide⟩).val := rfl
/-- The right operand's row is the class summed over. -/
theorem rhs_axis0 (j : S480x1600.Idx) (k : dot_S480x91_S91x1600_S480x1600_1_0_0_1_n_n.contr.Idx) :
    (dot_S480x91_S91x1600_S480x1600_1_0_0_1_n_n.rhsIdx j k 0).val = (k ⟨0, by decide⟩).val := rfl
/-- The right operand's column is the result's column. -/
theorem rhs_axis1 (j : S480x1600.Idx) (k : dot_S480x91_S91x1600_S480x1600_1_0_0_1_n_n.contr.Idx) :
    (dot_S480x91_S91x1600_S480x1600_1_0_0_1_n_n.rhsIdx j k 1).val = (j 1).val := rfl

/-- Entry `(p, q)` of the product into the zero block: the zero word plus the sum over the 91 classes. -/
theorem matmul_at (L : FVec Ideal S480x91 .bf16) (R : FVec Ideal S91x1600 .bf16) (p : Fin 480) (q : Fin 1600) :
    matmul dot_S480x91_S91x1600_S480x1600_1_0_0_1_n_n none L R (constant (F := Ideal) S480x1600 .f32 0x00000000#32) (ix2 p q)
      = w0 + ∑ k : Fin 91, L (ix2 p k) * R (ix2 k q) := by
  show FloatOps.matmul dot_S480x91_S91x1600_S480x1600_1_0_0_1_n_n none L R (constant (F := Ideal) S480x1600 .f32 0x00000000#32) (ix2 p q) = _
  rw [Ideal.matmul_apply]
  show w0 + _ = w0 + _
  congr 1
  rw [← Equiv.sum_comp (contrEquiv1 dot_S480x91_S91x1600_S480x1600_1_0_0_1_n_n 91 rfl rfl).symm]
  refine Finset.sum_congr rfl fun k _ => ?_
  have hl : dot_S480x91_S91x1600_S480x1600_1_0_0_1_n_n.lhsIdx (ix2 p q) ((contrEquiv1 dot_S480x91_S91x1600_S480x1600_1_0_0_1_n_n 91 rfl rfl).symm k) = ix2 p k := by
    funext a; refine Fin.ext ?_
    match a with
    | ⟨0, _⟩ => exact lhs_axis0 _ _
    | ⟨1, _⟩ => exact (lhs_axis1 _ _).trans (contrEquiv1_symm_val dot_S480x91_S91x1600_S480x1600_1_0_0_1_n_n 91 rfl rfl k)
  have hr : dot_S480x91_S91x1600_S480x1600_1_0_0_1_n_n.rhsIdx (ix2 p q) ((contrEquiv1 dot_S480x91_S91x1600_S480x1600_1_0_0_1_n_n 91 rfl rfl).symm k) = ix2 k q := by
    funext a; refine Fin.ext ?_
    match a with
    | ⟨0, _⟩ => exact (rhs_axis0 _ _).trans (contrEquiv1_symm_val dot_S480x91_S91x1600_S480x1600_1_0_0_1_n_n 91 rfl rfl k)
    | ⟨1, _⟩ => exact rhs_axis1 _ _
  rw [hl, hr]

/-! ## The class term -/

/-- The class cost in its three passes, each a sum over the classes against the one-hot column. -/
theorem pay1_apply (X : Vec Ideal S480x91 .f32) (T : Vec Ideal S91x1600 .bf16) (p : Fin 480) (q : Fin 1600) :
    k0_pay1 X T (ix2 p q)
      = ((w0 + ∑ k : Fin 91, classCost (X (ix2 p k)) * T (ix2 k q))
          + (w0 + ∑ k : Fin 91, (classCost (X (ix2 p k)) - classCost (X (ix2 p k))) * T (ix2 k q)))
        + (w0 + ∑ k : Fin 91, ((classCost (X (ix2 p k)) - classCost (X (ix2 p k)))
              - (classCost (X (ix2 p k)) - classCost (X (ix2 p k)))) * T (ix2 k q)) := by
  unfold k0_pay1
  simp only [shapeCast_self, addf_apply, matmul_at]
  rfl

/-! ## The overlap term and the total -/

/-- The body's last stretch: from the two earlier terms and the eight edges, the total at an entry. -/
theorem pay21_apply (C E : FVec Ideal S480x1600 .f32) (v71 v74 v77 v80 : FVec Ideal S480x1 .f32)
    (v83 v86 v89 v92 : FVec Ideal S1x1600 .f32) (a b : Fin 4 → EReal) (p : Fin 480) (q : Fin 1600)
    (h71 : v71 (ix2 p (0 : Fin 1)) = xlo a) (h74 : v74 (ix2 p (0 : Fin 1)) = ylo a)
    (h77 : v77 (ix2 p (0 : Fin 1)) = xhi a) (h80 : v80 (ix2 p (0 : Fin 1)) = yhi a)
    (h83 : v83 (ix2 (0 : Fin 1) q) = xlo b) (h86 : v86 (ix2 (0 : Fin 1) q) = ylo b)
    (h89 : v89 (ix2 (0 : Fin 1) q) = xhi b) (h92 : v92 (ix2 (0 : Fin 1) q) = yhi b) :
    k0_pay21 C E v71 v74 v77 v80 v83 v86 v89 v92 (ix2 p q) = (E (ix2 p q) + C (ix2 p q)) + giouCost a b := by
  unfold k0_pay21
  simp only [addf_apply, subf_apply, mulf_apply, divf_apply, maximumf_apply, minimumf_apply, broadcast_apply,
    col_read, row_read, h71, h74, h77, h80, h83, h86, h89, h92]
  rfl

/-- What the body leaves at entry `(p, q)` of its block, from the four input blocks. -/
theorem out0_4_apply (x0 : Vec Ideal S480x91 .f32) (x1 : Vec Ideal S480x4 .f32) (x2 : Vec Ideal S91x1600 .bf16)
    (x3 : Vec Ideal S4x1600 .f32) (p : Fin 480) (q : Fin 1600) :
    Cert.KernelIdeal.Gen.out0_4 (F := Ideal) x0 x1 x2 x3 (ix2 p q)
      = (l1 (fun k => x1 (ix2 p k)) (fun k => x3 (ix2 k q))
          + (((w0 + ∑ k : Fin 91, classCost (x0 (ix2 p k)) * x2 (ix2 k q))
              + (w0 + ∑ k : Fin 91, (classCost (x0 (ix2 p k)) - classCost (x0 (ix2 p k))) * x2 (ix2 k q)))
             + (w0 + ∑ k : Fin 91, ((classCost (x0 (ix2 p k)) - classCost (x0 (ix2 p k))) - (classCost (x0 (ix2 p k)) - classCost (x0 (ix2 p k)))) * x2 (ix2 k q))))
        + giouCost (fun k => x1 (ix2 p k)) (fun k => x3 (ix2 k q)) := by
  have hz : (![0, 0] : Fin 2 → Nat) = fun _ => 0 := by
    funext a; match a with | ⟨0, _⟩ => rfl | ⟨1, _⟩ => rfl
  unfold Cert.KernelIdeal.Gen.out0_4
  rw [View.canon_unit_zero hz]
  simp only [View.ld_unit_zero (S := S480x91) hz, View.ld_unit_zero (S := S480x4) hz,
    View.ld_unit_zero (S := S91x1600) hz, View.ld_unit_zero (S := S4x1600) hz, pay2_eq]
  rw [pay21_apply _ _ _ _ _ _ _ _ _ _ (fun k => x1 (ix2 p k)) (fun k => x3 (ix2 k q)) p q
    (pay13_apply x1 p) (pay14_apply x1 p) (pay15_apply x1 p) (pay16_apply x1 p)
    (pay17_apply x3 q) (pay18_apply x3 q) (pay19_apply x3 q) (pay20_apply x3 q),
    pay12_apply, pay1_apply]

end Cert.KernelIdeal.PayloadValue

end
-- ==== Proof.KernelHost.lean ====
/-
  What the region finds in its four operand arrays after the host lines before it.

  The two query arrays are the arguments reshaped, [16, 900, ·] read as [14400, ·]. The target boxes are the
  argument transposed: entry (k, q) is coordinate k of target q. The class table is a one-hot matrix: the labels
  are first clamped to [0, 90] as signed words, a label l becoming min (max l 0) 90, and entry (k, q) is 1 when
  the word of k equals the clamped label of target q and 0 otherwise. For a nonnegative label the clamp is the
  word of min l 90, so the entry is 1 exactly at k = min l 90, the class `clsOf` names.
-/
import proofs.«412521_j19782619365959_3_alg».proof.Proof.Spec
import proofs.«412521_j19782619365959_3_alg».proof.Proof.Gen.KernelIdeal.Frame
import Idealize.ShloMosaic.Lib.StableHlo.Predicate
import Idealize.ShloMosaic.Lib.Pipeline.Value

noncomputable section

namespace Cert.KernelIdeal.HostValue

open Idealize.ShloMosaic Idealize.ShloMosaic.ValueIdx Idealize.ShloMosaic.TcCoe Idealize.ShloMosaic.Tactic
open Idealize.ShloMosaic.StableHlo (Predicate.cmpi_eq_iff)
open Cert.MatchCost
open Facts₀

/-! ## Words -/

/-- A word whose signed reading is nonnegative reads the same unsigned. -/
theorem toInt_eq_toNat_of_nonneg (l : BitVec 32) (hl : 0 ≤ l.toInt) : l.toInt = (l.toNat : ℤ) := by
  have hlt := l.isLt
  have h := BitVec.toInt_eq_toNat_cond l
  by_cases hc : 2 * l.toNat < 2 ^ 32
  · rw [h, if_pos hc]
  · rw [h, if_neg hc] at hl; omega

/-- The clamp of a nonnegative label to [0, 90] is the word of k exactly when k is min l 90. -/
theorem clamp_eq_ofNat_iff (l : BitVec 32) (hl : 0 ≤ l.toInt) (k : Fin 91) :
    IntOp.minsi 90#32 (IntOp.maxsi 0#32 l) = BitVec.ofNat 32 k.val ↔ k = clsOf l := by
  have hk := k.isLt
  have hlt := l.isLt
  have hn : l.toInt = (l.toNat : ℤ) := toInt_eq_toNat_of_nonneg l hl
  have h0 : (0#32 : BitVec 32).toInt = 0 := by decide
  have h90 : (90#32 : BitVec 32).toInt = 90 := by decide
  have hmax : IntOp.maxsi 0#32 l = l := by
    unfold IntOp.maxsi
    rw [if_neg]
    simp only [BitVec.slt, h0, decide_eq_true_eq]
    omega
  rw [hmax, Fin.ext_iff]
  show _ ↔ k.val = min l.toInt.toNat 90
  unfold IntOp.minsi
  by_cases hc : (90#32 : BitVec 32).slt l = true
  · rw [if_pos hc]
    simp only [BitVec.slt, h90, decide_eq_true_eq] at hc
    rw [← BitVec.toNat_inj, BitVec.toNat_ofNat, BitVec.toNat_ofNat]
    omega
  · rw [if_neg hc]
    simp only [BitVec.slt, h90, decide_eq_true_eq] at hc
    rw [← BitVec.toNat_inj, BitVec.toNat_ofNat]
    omega

/-- The bit an equality test of two words gives, as a number. -/
theorem toNat_cmpi_eq (a b : BitVec 32) : (IntOp.cmpi .eq a b).toNat = if a = b then 1 else 0 := by
  by_cases h : a = b
  · rw [if_pos h, Predicate.cmpi_eq_iff.mpr h]; rfl
  · rw [if_neg h]
    have hne : IntOp.cmpi .eq a b ≠ 1#1 := fun e => h (Predicate.cmpi_eq_iff.mp e)
    have hlt := (IntOp.cmpi .eq a b).isLt
    have hne' : (IntOp.cmpi .eq a b).toNat ≠ 1 := fun e => hne (BitVec.eq_of_toNat_eq e)
    omega

/-- One entry of the one-hot table over a nonnegative label. -/
theorem onehot_entry (l : BitVec 32) (hl : 0 ≤ l.toInt) (k : Fin 91) :
    (((IntOp.cmpi .eq (IntOp.minsi 90#32 (IntOp.maxsi 0#32 l)) (BitVec.ofNat 32 k.val)).toNat : ℝ) : EReal)
      = if k = clsOf l then 1 else 0 := by
  rw [toNat_cmpi_eq]
  by_cases h : k = clsOf l
  · rw [if_pos h, if_pos ((clamp_eq_ofNat_iff l hl k).mpr h), Nat.cast_one, EReal.coe_one]
  · rw [if_neg h, if_neg (mt (clamp_eq_ofNat_iff l hl k).mp h), Nat.cast_zero, EReal.coe_zero]

/-! ## The arrays -/

variable (m : (ℓ : Loc nD τ sig) → Buf (Elt Ideal) ℓ) (c : Dev nD)

/-- The logits as the region finds them: the argument read as [14400, 91]. -/
theorem V_main_v0 : (Gen.V m c main_v0 : S14400x91.Idx → EReal)
    = shapeCast S14400x91 (m ((c.tc : Thread nD τ).loc main_arg0)) shapeCasts_S16x900x91_S14400x91 := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The query boxes as the region finds them: the argument read as [14400, 4]. -/
theorem V_main_v1 : (Gen.V m c main_v1 : S14400x4.Idx → EReal)
    = shapeCast S14400x4 (m ((c.tc : Thread nD τ).loc main_arg1)) shapeCasts_S16x900x4_S14400x4 := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The target boxes as the region finds them, as one term: the argument transposed. -/
theorem V_main_v5 : (Gen.V m c main_v5 : S4x1600.Idx → EReal)
    = transpose S4x1600 [1, 0] (m ((c.tc : Thread nD τ).loc main_arg3) : S1600x4.Idx → EReal) transposes_S1600x4_S4x1600_1_0 := by
  dsimp only [Gen.V, Gen.V0]
  simp only [Gen.hostOps0, Gen.hostOps0_1, Gen.hostOps0_2, Gen.hostOps0_3, List.flatten_cons, List.flatten_nil, List.append_nil,
    List.cons_append, List.nil_append]
  after_results

/-- Entry (k, q) of the transposed target boxes is coordinate k of target q. -/
theorem V_main_v5_apply (k : Fin 4) (q : Fin 1600) :
    (Gen.V m c main_v5 : S4x1600.Idx → EReal) (ix2 k q) = (m ((c.tc : Thread nD τ).loc main_arg3) : S1600x4.Idx → EReal) (ix2 q k) := by
  rw [V_main_v5]
  exact transpose_apply [1, 0] _ transposes_S1600x4_S4x1600_1_0 (ix2 k q) (ix2 q k)
    (fun b => match b with | ⟨0, _⟩ => rfl | ⟨1, _⟩ => rfl)

/-- The labels clamped to [0, 90] as signed words: min 90 (max 0 l) at every target. -/
abbrev clampedLabels (lab : S1600.Idx → BitVec 32) : S1600.Idx → BitVec 32 :=
  minsi (broadcastInDim S1600 ![] bcast_S_S1600 (constantI S_ 32 90#32))
    (maxsi (broadcastInDim S1600 ![] bcast_S_S1600 (constantI S_ 32 0#32)) lab)

/-- The class table as the region finds it, as one term. -/
theorem V_main_v4 : (Gen.V m c main_v4 : S91x1600.Idx → EReal)
    = transpose S91x1600 [1, 0]
        (uitofp (F := Ideal) .bf16
          (cmpi .eq
            (broadcastInDim S1600x91 ![0, 1] bcast_S1600x1_S1600x91_0_1
              (broadcastInDim S1600x1 ![0] bcast_S1600_S1600x1_0
                (clampedLabels (m ((c.tc : Thread nD τ).loc main_arg2)))))
            (broadcastInDim S1600x91 ![0, 1] bcast_S1x91_S1600x91_0_1 (iotaInDim S1x91 32 1))))
        transposes_S1600x91_S91x1600_1_0 := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The labels laid along the rows of a [1600, 91] rectangle read, at (q, k), the clamped label of target q. -/
theorem labels_apply (lab : S1600.Idx → BitVec 32) (q : Fin 1600) (k : Fin 91) :
    broadcastInDim S1600x91 ![0, 1] bcast_S1600x1_S1600x91_0_1
        (broadcastInDim S1600x1 ![0] bcast_S1600_S1600x1_0 (clampedLabels lab)) (ix2 q k)
      = IntOp.minsi 90#32 (IntOp.maxsi 0#32 (lab (ix1 q))) := by
  refine (broadcastInDim_apply ![0, 1] bcast_S1600x1_S1600x91_0_1 _ (ix2 q k) (ix2 q (0 : Fin 1))
    (fun a => match a with | ⟨0, _⟩ => rfl | ⟨1, _⟩ => rfl)).trans ?_
  refine (broadcastInDim_apply ![0] bcast_S1600_S1600x1_0 _ (ix2 q (0 : Fin 1)) (ix1 q)
    (fun a => match a with | ⟨0, _⟩ => rfl)).trans ?_
  rfl

/-- The class numbers laid along the columns read, at (q, k), the word of k. -/
theorem classes_apply (q : Fin 1600) (k : Fin 91) :
    broadcastInDim S1600x91 ![0, 1] bcast_S1x91_S1600x91_0_1 (iotaInDim S1x91 32 1) (ix2 q k) = BitVec.ofNat 32 k.val := by
  refine (broadcastInDim_apply ![0, 1] bcast_S1x91_S1600x91_0_1 _ (ix2 q k) (ix2 (0 : Fin 1) k)
    (fun a => match a with | ⟨0, _⟩ => rfl | ⟨1, _⟩ => rfl)).trans ?_
  rfl

/-- Entry (k, q) of the class table is 1 at the class of target q's label and 0 elsewhere. -/
theorem V_main_v4_apply (hlab : NonNeg (m ((c.tc : Thread nD τ).loc main_arg2) : S1600.Idx → BitVec 32)) (k : Fin 91) (q : Fin 1600) :
    (Gen.V m c main_v4 : S91x1600.Idx → EReal) (ix2 k q)
      = (if k = clsOf ((m ((c.tc : Thread nD τ).loc main_arg2) : S1600.Idx → BitVec 32) (ix1 q)) then 1 else 0 : EReal) := by
  rw [V_main_v4]
  refine (transpose_apply [1, 0] _ transposes_S1600x91_S91x1600_1_0 (ix2 k q) (ix2 q k)
    (fun b => match b with | ⟨0, _⟩ => rfl | ⟨1, _⟩ => rfl)).trans ?_
  show (((IntOp.cmpi .eq
      (broadcastInDim S1600x91 ![0, 1] bcast_S1600x1_S1600x91_0_1
        (broadcastInDim S1600x1 ![0] bcast_S1600_S1600x1_0 (clampedLabels (m ((c.tc : Thread nD τ).loc main_arg2)))) (ix2 q k))
      (broadcastInDim S1600x91 ![0, 1] bcast_S1x91_S1600x91_0_1 (iotaInDim S1x91 32 1) (ix2 q k))).toNat : ℝ) : EReal) = _
  rw [labels_apply, classes_apply]
  exact onehot_entry _ (hlab (ix1 q)) k

end Cert.KernelIdeal.HostValue

end
-- ==== Proof.KernelValue.lean ====
/-
  The kernel's result as one function of its arguments.

  Block by block: at grid point `t` the body's store, read at `(p, q)`, is the L1 term plus the one-hot contraction plus
  the GIoU term of query `480 t + p` and target `q`. The contraction is taken three times, over the class costs of the
  query's row and over the two remainders of its bf16 three-way split; on the extended reals a change of format is the
  identity, so for real class costs both remainders are zero, and since column `q` of the table is the indicator of the
  target's class the first contraction is the class cost at that class. The thirty row blocks tile the flat matrix,
  and the last host line reshapes it to batch × query × target.
-/
import proofs.«412521_j19782619365959_3_alg».proof.Proof.Spec
import proofs.«412521_j19782619365959_3_alg».proof.Proof.Laws
import proofs.«412521_j19782619365959_3_alg».proof.Proof.KernelArray
import proofs.«412521_j19782619365959_3_alg».proof.Proof.KernelPayload
import proofs.«412521_j19782619365959_3_alg».proof.Proof.KernelHost
import Mathlib.Tactic.DefEqTransformations

noncomputable section

open Idealize.ShloMosaic Idealize.ShloMosaic.TcCoe Idealize.SL.Sem Idealize.ShloMosaic.ValueIdx Cert.MatchCost

namespace Cert.KernelIdeal.KernelValue

open Cert.KernelIdeal Cert.KernelIdeal.Gen

variable (m : (ℓ : Loc nD τ sig) → Buf (Elt Ideal) ℓ) (ρ : Dev nD → PrngReg)

/-- A reshape of an array of reals is an array of reals: it holds the same entries. -/
theorem isReal_shapeCast {s t : Shape} (x : s.Idx → EReal) (h : s.ShapeCasts t) (hx : IsReal x) : IsReal (shapeCast t x h) :=
  fun j => hx (Shape.reshapeEquiv h j)

/-- ONE BLOCK: at grid point `t`, entry `(p, q)` of what the body stores is the cost of flat query `480 t + p` against
    target `q`. The three partial products of the one-hot contraction collapse to the class cost at the target's class:
    the class costs of a row of real logits are real, so the two remainders of the three-way split vanish, and the
    table's column `q` is the indicator of that class. -/
theorem block_value (c : Dev nD) (hx0 : IsReal (m ((c.tc : Thread nD τ).loc main_arg0)))
    (hlab : NonNeg (m ((c.tc : Thread nD τ).loc main_arg2))) (t : Fin cfg0.N) (p : Fin 480) (q : Fin 1600) :
    out0_4 (F := Ideal) (iblk m c 0 t) (iblk m c 1 t) (iblk m c 2 t) (iblk m c 3 t) (ix2 p q)
      = costMatrix (shapeCast S14400x91 (m ((c.tc : Thread nD τ).loc main_arg0)) shapeCasts_S16x900x91_S14400x91)
          (shapeCast S14400x4 (m ((c.tc : Thread nD τ).loc main_arg1)) shapeCasts_S16x900x4_S14400x4)
          (m ((c.tc : Thread nD τ).loc main_arg2)) (m ((c.tc : Thread nD τ).loc main_arg3))
          (ix2 ⟨t.val * 480 + p.val, ArrayValue.row_lt t p⟩ q) := by
  refine (PayloadValue.out0_4_apply (iblk m c 0 t) (iblk m c 1 t) (iblk m c 2 t) (iblk m c 3 t) p q).trans ?_
  simp only [ArrayValue.iblk0_apply, ArrayValue.iblk1_apply, ArrayValue.iblk2_apply, ArrayValue.iblk3_apply]
  rw [HostValue.V_main_v0, HostValue.V_main_v1]
  have e5 : (fun k : Fin 4 => (V m c main_v5 : S4x1600.Idx → EReal) (ix2 k q))
      = fun k : Fin 4 => m ((c.tc : Thread nD τ).loc main_arg3) (ix2 q k) :=
    funext fun k => HostValue.V_main_v5_apply m c k q
  rw [e5]
  have hc := onehot_contract
    (fun k : Fin 91 => classCost (shapeCast S14400x91 (m ((c.tc : Thread nD τ).loc main_arg0)) shapeCasts_S16x900x91_S14400x91
      (ix2 ⟨t.val * 480 + p.val, ArrayValue.row_lt t p⟩ k)))
    (fun k : Fin 91 => (V m c main_v4 : S91x1600.Idx → EReal) (ix2 k q))
    (clsOf (m ((c.tc : Thread nD τ).loc main_arg2) (ix1 q)))
    (fun k => by
      obtain ⟨r, hr⟩ := isReal_shapeCast _ shapeCasts_S16x900x91_S14400x91 hx0 (ix2 ⟨t.val * 480 + p.val, ArrayValue.row_lt t p⟩ k)
      rw [hr]; exact classCost_isReal r)
    (fun k => HostValue.V_main_v4_apply m c hlab k q)
  beta_reduce at hc
  rw [hc]
  rfl

/-- THE KERNEL'S RUN, its result named: the reshaped cost matrix of the reshaped arguments. -/
theorem kernel_value (hx0 : ∀ c : Dev nD, IsReal (m ((c.tc : Thread nD τ).loc main_arg0)))
    (hlab : ∀ c : Dev nD, NonNeg (m ((c.tc : Thread nD τ).loc main_arg2))) :
    θ_run (defs (F := Ideal)) (onTc (τ := τ) (main (F := Ideal))) ⟨m, fun _ => 0, ρ⟩ (fun r => ∀ c : Dev nD,
      r.2.mem ((c.tc : Thread nD τ).loc main_v7) = shapeCast S16x900x1600 (costMatrix
          (shapeCast S14400x91 (m ((c.tc : Thread nD τ).loc main_arg0)) shapeCasts_S16x900x91_S14400x91)
          (shapeCast S14400x4 (m ((c.tc : Thread nD τ).loc main_arg1)) shapeCasts_S16x900x4_S14400x4)
          (m ((c.tc : Thread nD τ).loc main_arg2)) (m ((c.tc : Thread nD τ).loc main_arg3))) shapeCasts_S14400x1600_S16x900x1600
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  ArrayValue.run_value m ρ _ (fun c => ArrayValue.arrAt_of_blocks m c _ (fun t p q => block_value m c (hx0 c) (hlab c) t p q))

end Cert.KernelIdeal.KernelValue

end
-- ==== Proof.RefClassBox.lean ====
/-
  The reference's classification term and its L1 term, read at one query–target pair (n, t).

  The classification term is the difference of two arrays over [queries, classes] — ¼ (1 − p)² (−log (p + ε)) and
  ¾ p² (−log (1 − p + ε)) at p = 1 / (1 + e^(−x)) — each gathered along the class axis at the target's label. A
  gather clamps its start index into the axis, so at a nonnegative label l it reads column min l 90; a negative
  label would first be shifted by 91, which the hypothesis on the labels rules out. Both gathers read the same
  column, so their difference is the focal cost of that one logit.

  The L1 term is the sum over the four box coordinates of |a_k − b_k|, the query's box broadcast along the targets
  and the target's along the queries.
-/
import proofs.«412521_j19782619365959_3_alg».proof.Proof.Spec
import proofs.«412521_j19782619365959_3_alg».proof.Proof.Laws
import proofs.«412521_j19782619365959_3_alg».proof.Proof.Gen.ReferenceIdeal.Read

noncomputable section

namespace Cert.ReferenceIdeal.RefValue

open Idealize.ShloMosaic Idealize.ShloMosaic.ValueIdx Cert.MatchCost
open Cert.ReferenceIdeal Cert.ReferenceIdeal.Gen

/-! ## A gather along the class axis reads one column, the clamped start index -/

/-- Result element (n, t) of the gather is the operand at row n and the column the start index t names, read signed
    and clamped into [0, 90]: row n comes from the offset axis, the column from the one-component start index. -/
theorem gather_row_apply {α : Type} (x : S14400x91.Idx → α) (idx : IVec S1600x1 32) (n : Fin 14400) (t : Fin 1600) :
    Host.gather gather_S14400x91_S1600x1_S14400x1600_0_1_n_n_1_1_144001 x idx (ix2 n t)
      = x (ix2 n (clsOf (idx (ix2 t (0 : Fin 1))))) := by
  unfold Host.gather
  congr 1
  funext a
  refine Fin.ext ?_
  match a with
  | ⟨0, _⟩ =>
    show gather_S14400x91_S1600x1_S14400x1600_0_1_n_n_1_1_144001.start (ix2 n t) idx 0
        + gather_S14400x91_S1600x1_S14400x1600_0_1_n_n_1_1_144001.batchCoord (ix2 n t) 0
        + gather_S14400x91_S1600x1_S14400x1600_0_1_n_n_1_1_144001.offCoord (ix2 n t) 0 = n.val
    have hs : gather_S14400x91_S1600x1_S14400x1600_0_1_n_n_1_1_144001.start (ix2 n t) idx 0 = 0 := by
      unfold GatherDims.start
      rw [dif_neg (show (0 : Fin 2) ∉ gather_S14400x91_S1600x1_S14400x1600_0_1_n_n_1_1_144001.startIndexMap by decide)]
    have ho : gather_S14400x91_S1600x1_S14400x1600_0_1_n_n_1_1_144001.offCoord (ix2 n t) 0 = n.val := by
      unfold GatherDims.offCoord
      rw [dif_pos (show (0 : Fin 2) ∈ gather_S14400x91_S1600x1_S14400x1600_0_1_n_n_1_1_144001.sKept by decide)]
      rfl
    rw [hs, GatherDims.batchCoord_eq_zero _ _ _ List.not_mem_nil, ho, Nat.add_zero, Nat.zero_add]
  | ⟨1, _⟩ =>
    show gather_S14400x91_S1600x1_S14400x1600_0_1_n_n_1_1_144001.start (ix2 n t) idx 1
        + gather_S14400x91_S1600x1_S14400x1600_0_1_n_n_1_1_144001.batchCoord (ix2 n t) 1
        + gather_S14400x91_S1600x1_S14400x1600_0_1_n_n_1_1_144001.offCoord (ix2 n t) 1
      = min (idx (ix2 t (0 : Fin 1))).toInt.toNat 90
    rw [GatherDims.batchCoord_eq_zero _ _ _ List.not_mem_nil,
      GatherDims.offCoord_eq_zero _ _ _
        (show (1 : Fin 2) ∉ gather_S14400x91_S1600x1_S14400x1600_0_1_n_n_1_1_144001.sKept by decide)]
    simp only [Nat.add_zero]
    unfold GatherDims.start
    rw [dif_pos (show (1 : Fin 2) ∈ gather_S14400x91_S1600x1_S14400x1600_0_1_n_n_1_1_144001.startIndexMap by decide)]
    have hsi : gather_S14400x91_S1600x1_S14400x1600_0_1_n_n_1_1_144001.siIdx (ix2 n t)
        ⟨List.idxOf (1 : Fin 2) gather_S14400x91_S1600x1_S14400x1600_0_1_n_n_1_1_144001.startIndexMap,
          List.idxOf_lt_length_iff.2
            (show (1 : Fin 2) ∈ gather_S14400x91_S1600x1_S14400x1600_0_1_n_n_1_1_144001.startIndexMap by decide)⟩
        = ix2 t (0 : Fin 1) := by
      funext b; refine Fin.ext ?_
      match b with
      | ⟨0, _⟩ => rfl
      | ⟨1, _⟩ => rfl
    rw [hsi]
    rfl

/-! ## The start indices: the labels themselves, where no label is negative -/

/-- A nonnegative word is not below zero as a signed word. -/
theorem slt_zero_of_nonneg (l : BitVec 32) (h : 0 ≤ l.toInt) : IntOp.cmpi .slt l 0#32 = 0#1 := by
  have hlt : l.slt 0#32 = false := by
    simp only [BitVec.slt, BitVec.toInt_zero, decide_eq_false_iff_not, not_lt]
    exact h
  unfold IntOp.cmpi
  simp only [hlt]
  rfl

/-- The first gather's start index for target t is t's label: the wrap-around of a negative label does not fire. -/
theorem start36_apply (x2 : S1600.Idx → BitVec 32) (hlab : NonNeg x2) (t : Fin 1600) :
    Read.val_main_v35 (F := Ideal) x2 (ix2 t (0 : Fin 1)) = x2 (ix1 t) := by
  have hi : Read.idx_main_v35 (ix2 t (0 : Fin 1)) = ix1 t := by
    funext a; match a with | ⟨0, _⟩ => rfl
  rw [Read.val_main_v35_apply, hi, Read.val_main_v34_apply, Read.val_main_v31_apply, Read.val_main_v30_apply,
    Read.val_main_c_apply, slt_zero_of_nonneg _ (hlab _), select_zero]

/-- The second gather's start index for target t is t's label too. -/
theorem start43_apply (x2 : S1600.Idx → BitVec 32) (hlab : NonNeg x2) (t : Fin 1600) :
    Read.val_main_v42 (F := Ideal) x2 (ix2 t (0 : Fin 1)) = x2 (ix1 t) := by
  have hi : Read.idx_main_v42 (ix2 t (0 : Fin 1)) = ix1 t := by
    funext a; match a with | ⟨0, _⟩ => rfl
  rw [Read.val_main_v42_apply, hi, Read.val_main_v41_apply, Read.val_main_v38_apply, Read.val_main_v37_apply,
    Read.val_main_c_10_apply, slt_zero_of_nonneg _ (hlab _), select_zero]

/-! ## The two arrays over [queries, classes], at an index -/

/-- The probability 1 / (1 + e^(−x)) of the logit at an index. -/
theorem prob_apply (x0 : S16x900x91.Idx → EReal) (i : S14400x91.Idx) :
    Read.val_main_v6 (F := Ideal) x0 i
      = Ideal.div w1 (w1 + Ideal.exp (-(Read.val_main_v0 (F := Ideal) x0 i))) := by
  rw [Read.val_main_v6_apply, Read.val_main_v5_apply, Read.val_main_cst_0_apply, Read.val_main_v4_apply,
    Read.val_main_v3_apply, Read.val_main_cst_apply, Read.val_main_v2_apply, Read.val_main_v1_apply]
  rfl

/-- ¼ (1 − p)² (−log (p + ε)) at an index. -/
theorem pos_apply (x0 : S16x900x91.Idx → EReal) (i : S14400x91.Idx) :
    Read.val_main_v29 (F := Ideal) x0 i
      = (w025 * Ideal.pow (w1 - Read.val_main_v6 (F := Ideal) x0 i) w2)
          * (-(Ideal.log (Read.val_main_v6 (F := Ideal) x0 i + weps))) := by
  rw [Read.val_main_v29_apply, Read.val_main_v24_apply, Read.val_main_v23_apply, Read.val_main_cst_7_apply,
    Read.val_main_v22_apply, Read.val_main_v20_apply, Read.val_main_v19_apply, Read.val_main_cst_5_apply,
    Read.val_main_v21_apply, Read.val_main_cst_6_apply, Read.val_main_v28_apply, Read.val_main_v27_apply,
    Read.val_main_v26_apply, Read.val_main_v25_apply, Read.val_main_cst_8_apply]
  rfl

/-- ¾ p² (−log (1 − p + ε)) at an index. -/
theorem neg_apply (x0 : S16x900x91.Idx → EReal) (i : S14400x91.Idx) :
    Read.val_main_v18 (F := Ideal) x0 i
      = (w075 * Ideal.pow (Read.val_main_v6 (F := Ideal) x0 i) w2)
          * (-(Ideal.log ((w1 - Read.val_main_v6 (F := Ideal) x0 i) + weps))) := by
  rw [Read.val_main_v18_apply, Read.val_main_v11_apply, Read.val_main_v10_apply, Read.val_main_cst_2_apply,
    Read.val_main_v9_apply, Read.val_main_v8_apply, Read.val_main_cst_1_apply, Read.val_main_v17_apply,
    Read.val_main_v16_apply, Read.val_main_v15_apply, Read.val_main_v13_apply, Read.val_main_v12_apply,
    Read.val_main_cst_3_apply, Read.val_main_v14_apply, Read.val_main_cst_4_apply]
  rfl

/-! ## The classification term of a pair -/

/-- Entry (n, t) of the classification term is the focal cost of query n's logit for target t's class. -/
theorem ref_class_apply (x0 : S16x900x91.Idx → EReal) (x2 : S1600.Idx → BitVec 32) (hx0 : IsReal x0) (hlab : NonNeg x2)
    (n : Fin 14400) (t : Fin 1600) :
    Read.val_main_v44 (F := Ideal) x0 x2 (ix2 n t)
      = classCost (Read.val_main_v0 (F := Ideal) x0 (ix2 n (clsOf (x2 (ix1 t))))) := by
  obtain ⟨r, hr⟩ : ∃ r : ℝ, Read.val_main_v0 (F := Ideal) x0 (ix2 n (clsOf (x2 (ix1 t)))) = (r : EReal) := by
    rw [Read.val_main_v0_apply]; exact hx0 _
  have h36 : Read.val_main_v36 (F := Ideal) x0 x2 (ix2 n t)
      = Read.val_main_v29 (F := Ideal) x0 (ix2 n (clsOf (x2 (ix1 t)))) := by
    unfold Read.val_main_v36
    rw [gather_row_apply, start36_apply x2 hlab t]
  have h43 : Read.val_main_v43 (F := Ideal) x0 x2 (ix2 n t)
      = Read.val_main_v18 (F := Ideal) x0 (ix2 n (clsOf (x2 (ix1 t)))) := by
    unfold Read.val_main_v43
    rw [gather_row_apply, start43_apply x2 hlab t]
  rw [Read.val_main_v44_apply, h36, h43, pos_apply, neg_apply, prob_apply, hr]
  exact ref_class_eq r

/-! ## The L1 term of a pair -/

/-- Entry (n, t) of the L1 term is the L1 distance of query n's box and target t's. -/
theorem ref_l1_apply (x1 : S16x900x4.Idx → EReal) (x3 : S1600x4.Idx → EReal) (n : Fin 14400) (t : Fin 1600) :
    Read.val_main_v51 (F := Ideal) x1 x3 (ix2 n t)
      = l1 (fun k => Read.val_main_v7 (F := Ideal) x1 (ix2 n k)) (fun k => x3 (ix2 t k)) := by
  have hq : ∀ k : Fin 4, Read.idx_main_v45 (Read.idx_main_v47 (Read.idx_main_v51 (ix2 n t) k)) = ix2 n k := by
    intro k; funext a; match a with | ⟨0, _⟩ => rfl | ⟨1, _⟩ => rfl
  have ht : ∀ k : Fin 4, Read.idx_main_v46 (Read.idx_main_v48 (Read.idx_main_v51 (ix2 n t) k)) = ix2 t k := by
    intro k; funext a; match a with | ⟨0, _⟩ => rfl | ⟨1, _⟩ => rfl
  have hterm : ∀ k : Fin 4, Read.val_main_v50 (F := Ideal) x1 x3 (Read.idx_main_v51 (ix2 n t) k)
      = absE (Read.val_main_v7 (F := Ideal) x1 (ix2 n k) - x3 (ix2 t k)) := by
    intro k
    rw [Read.val_main_v50_apply, Read.val_main_v49_apply, Read.val_main_v47_apply, Read.val_main_v45_apply, hq k,
      Read.val_main_v48_apply, Read.val_main_v46_apply, ht k]
    rfl
  rw [Read.val_main_v51_apply, Read.val_main_cst_12_apply]
  simp only [hterm]
  exact ref_l1_eq (fun k => Read.val_main_v7 (F := Ideal) x1 (ix2 n k)) (fun k => x3 (ix2 t k))

end Cert.ReferenceIdeal.RefValue

end
-- ==== Proof.RefGiou.lean ====
/-
  The generalized-IoU term of the reference program, read at one query–target pair.

  The reference turns each box `(cx, cy, w, h)` into its corners `(cx − ½w, cy − ½h, cx + ½w, cy + ½h)`, joins the four
  corner columns into one array, and from the two corner arrays computes, pair by pair, the areas, the intersection
  rectangle's area, the union, the enclosing rectangle's area, and `−(inter/union − (hull − union)/hull)`.
  Every step below reads one operation at explicit coordinates; the last step is the extended-real identity that this
  expression is the specification's `giouCost` on real boxes.
-/
import proofs.«412521_j19782619365959_3_alg».proof.Proof.Spec
import proofs.«412521_j19782619365959_3_alg».proof.Proof.Laws
import proofs.«412521_j19782619365959_3_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.ValueIdx Cert.MatchCost

/-! ## Indices are equal when their coordinates are -/

theorem idx1_ext {n0 : Nat} {i j : (⟨1, ![n0]⟩ : Shape).Idx} (h0 : (i 0).val = (j 0).val) : i = j := by
  funext a
  match a with
  | ⟨0, _⟩ => exact Fin.ext h0

theorem idx2_ext {n0 n1 : Nat} {i j : (⟨2, ![n0, n1]⟩ : Shape).Idx} (h0 : (i 0).val = (j 0).val)
    (h1 : (i 1).val = (j 1).val) : i = j := by
  funext a
  match a with
  | ⟨0, _⟩ => exact Fin.ext h0
  | ⟨1, _⟩ => exact Fin.ext h1

theorem idx3_ext {n0 n1 n2 : Nat} {i j : (⟨3, ![n0, n1, n2]⟩ : Shape).Idx} (h0 : (i 0).val = (j 0).val)
    (h1 : (i 1).val = (j 1).val) (h2 : (i 2).val = (j 2).val) : i = j := by
  funext a
  match a with
  | ⟨0, _⟩ => exact Fin.ext h0
  | ⟨1, _⟩ => exact Fin.ext h1
  | ⟨2, _⟩ => exact Fin.ext h2

/-! ## Four one-column pieces joined along the columns: column `j` of the result is piece `j` -/

section Join
variable {α : Type}

theorem catq0 (y0 y1 y2 y3 : S14400x1.Idx → α) (n : Fin 14400) :
    concatenate S14400x4 1 [⟨S14400x1, y0⟩, ⟨S14400x1, y1⟩, ⟨S14400x1, y2⟩, ⟨S14400x1, y3⟩]
      concatenates_S14400x1_S14400x1_S14400x1_S14400x1_S14400x4_d1 (ix2 n (0 : Fin 4)) = y0 (ix2 n (0 : Fin 1)) :=
  concatenate_apply_piece (1 : Fin 2) _ _ (ix2 n (0 : Fin 4)) 0 (by show (0 : Nat) < 4; decide) S14400x1 y0 rfl rfl 0 rfl
    (ix2 n (0 : Fin 1)) (fun b hb => match b with | ⟨0, _⟩ => rfl | ⟨1, _⟩ => absurd rfl hb) rfl

theorem catq1 (y0 y1 y2 y3 : S14400x1.Idx → α) (n : Fin 14400) :
    concatenate S14400x4 1 [⟨S14400x1, y0⟩, ⟨S14400x1, y1⟩, ⟨S14400x1, y2⟩, ⟨S14400x1, y3⟩]
      concatenates_S14400x1_S14400x1_S14400x1_S14400x1_S14400x4_d1 (ix2 n (1 : Fin 4)) = y1 (ix2 n (0 : Fin 1)) :=
  concatenate_apply_piece (1 : Fin 2) _ _ (ix2 n (1 : Fin 4)) 1 (by show (1 : Nat) < 4; decide) S14400x1 y1 rfl rfl 1 rfl
    (ix2 n (0 : Fin 1)) (fun b hb => match b with | ⟨0, _⟩ => rfl | ⟨1, _⟩ => absurd rfl hb) rfl

theorem catq2 (y0 y1 y2 y3 : S14400x1.Idx → α) (n : Fin 14400) :
    concatenate S14400x4 1 [⟨S14400x1, y0⟩, ⟨S14400x1, y1⟩, ⟨S14400x1, y2⟩, ⟨S14400x1, y3⟩]
      concatenates_S14400x1_S14400x1_S14400x1_S14400x1_S14400x4_d1 (ix2 n (2 : Fin 4)) = y2 (ix2 n (0 : Fin 1)) :=
  concatenate_apply_piece (1 : Fin 2) _ _ (ix2 n (2 : Fin 4)) 2 (by show (2 : Nat) < 4; decide) S14400x1 y2 rfl rfl 2 rfl
    (ix2 n (0 : Fin 1)) (fun b hb => match b with | ⟨0, _⟩ => rfl | ⟨1, _⟩ => absurd rfl hb) rfl

theorem catq3 (y0 y1 y2 y3 : S14400x1.Idx → α) (n : Fin 14400) :
    concatenate S14400x4 1 [⟨S14400x1, y0⟩, ⟨S14400x1, y1⟩, ⟨S14400x1, y2⟩, ⟨S14400x1, y3⟩]
      concatenates_S14400x1_S14400x1_S14400x1_S14400x1_S14400x4_d1 (ix2 n (3 : Fin 4)) = y3 (ix2 n (0 : Fin 1)) :=
  concatenate_apply_piece (1 : Fin 2) _ _ (ix2 n (3 : Fin 4)) 3 (by show (3 : Nat) < 4; decide) S14400x1 y3 rfl rfl 3 rfl
    (ix2 n (0 : Fin 1)) (fun b hb => match b with | ⟨0, _⟩ => rfl | ⟨1, _⟩ => absurd rfl hb) rfl

theorem catt0 (y0 y1 y2 y3 : S1600x1.Idx → α) (n : Fin 1600) :
    concatenate S1600x4 1 [⟨S1600x1, y0⟩, ⟨S1600x1, y1⟩, ⟨S1600x1, y2⟩, ⟨S1600x1, y3⟩]
      concatenates_S1600x1_S1600x1_S1600x1_S1600x1_S1600x4_d1 (ix2 n (0 : Fin 4)) = y0 (ix2 n (0 : Fin 1)) :=
  concatenate_apply_piece (1 : Fin 2) _ _ (ix2 n (0 : Fin 4)) 0 (by show (0 : Nat) < 4; decide) S1600x1 y0 rfl rfl 0 rfl
    (ix2 n (0 : Fin 1)) (fun b hb => match b with | ⟨0, _⟩ => rfl | ⟨1, _⟩ => absurd rfl hb) rfl

theorem catt1 (y0 y1 y2 y3 : S1600x1.Idx → α) (n : Fin 1600) :
    concatenate S1600x4 1 [⟨S1600x1, y0⟩, ⟨S1600x1, y1⟩, ⟨S1600x1, y2⟩, ⟨S1600x1, y3⟩]
      concatenates_S1600x1_S1600x1_S1600x1_S1600x1_S1600x4_d1 (ix2 n (1 : Fin 4)) = y1 (ix2 n (0 : Fin 1)) :=
  concatenate_apply_piece (1 : Fin 2) _ _ (ix2 n (1 : Fin 4)) 1 (by show (1 : Nat) < 4; decide) S1600x1 y1 rfl rfl 1 rfl
    (ix2 n (0 : Fin 1)) (fun b hb => match b with | ⟨0, _⟩ => rfl | ⟨1, _⟩ => absurd rfl hb) rfl

theorem catt2 (y0 y1 y2 y3 : S1600x1.Idx → α) (n : Fin 1600) :
    concatenate S1600x4 1 [⟨S1600x1, y0⟩, ⟨S1600x1, y1⟩, ⟨S1600x1, y2⟩, ⟨S1600x1, y3⟩]
      concatenates_S1600x1_S1600x1_S1600x1_S1600x1_S1600x4_d1 (ix2 n (2 : Fin 4)) = y2 (ix2 n (0 : Fin 1)) :=
  concatenate_apply_piece (1 : Fin 2) _ _ (ix2 n (2 : Fin 4)) 2 (by show (2 : Nat) < 4; decide) S1600x1 y2 rfl rfl 2 rfl
    (ix2 n (0 : Fin 1)) (fun b hb => match b with | ⟨0, _⟩ => rfl | ⟨1, _⟩ => absurd rfl hb) rfl

theorem catt3 (y0 y1 y2 y3 : S1600x1.Idx → α) (n : Fin 1600) :
    concatenate S1600x4 1 [⟨S1600x1, y0⟩, ⟨S1600x1, y1⟩, ⟨S1600x1, y2⟩, ⟨S1600x1, y3⟩]
      concatenates_S1600x1_S1600x1_S1600x1_S1600x1_S1600x4_d1 (ix2 n (3 : Fin 4)) = y3 (ix2 n (0 : Fin 1)) :=
  concatenate_apply_piece (1 : Fin 2) _ _ (ix2 n (3 : Fin 4)) 3 (by show (3 : Nat) < 4; decide) S1600x1 y3 rfl rfl 3 rfl
    (ix2 n (0 : Fin 1)) (fun b hb => match b with | ⟨0, _⟩ => rfl | ⟨1, _⟩ => absurd rfl hb) rfl

end Join

variable (x1 : (⟨S16x900x4, .f32⟩ : BufTy).Contents (Elt Ideal)) (x3 : (⟨S1600x4, .f32⟩ : BufTy).Contents (Elt Ideal))

/-- The query's box `(cx, cy, w, h)`. -/
abbrev qbox (n : Fin 14400) : Fin 4 → EReal := fun k => val_main_v7 (F := Ideal) x1 (ix2 n k)
/-- The target's box `(cx, cy, w, h)`. -/
abbrev tbox (t : Fin 1600) : Fin 4 → EReal := fun k => x3 (ix2 t k)

/-! ## The query boxes' corners -/

theorem q53 (n : Fin 14400) : val_main_v53 (F := Ideal) x1 (ix1 n) = val_main_v7 (F := Ideal) x1 (ix2 n (0 : Fin 4)) := by
  rw [val_main_v53_apply, val_main_v52_apply]
  refine congrArg (val_main_v7 (F := Ideal) x1) (idx2_ext ?_ ?_)
  · exact Nat.div_one _
  · rfl

theorem q55 (n : Fin 14400) : val_main_v55 (F := Ideal) x1 (ix1 n) = val_main_v7 (F := Ideal) x1 (ix2 n (1 : Fin 4)) := by
  rw [val_main_v55_apply, val_main_v54_apply]
  refine congrArg (val_main_v7 (F := Ideal) x1) (idx2_ext ?_ ?_)
  · exact Nat.div_one _
  · rfl

theorem q57 (n : Fin 14400) : val_main_v57 (F := Ideal) x1 (ix1 n) = val_main_v7 (F := Ideal) x1 (ix2 n (2 : Fin 4)) := by
  rw [val_main_v57_apply, val_main_v56_apply]
  refine congrArg (val_main_v7 (F := Ideal) x1) (idx2_ext ?_ ?_)
  · exact Nat.div_one _
  · rfl

theorem q59 (n : Fin 14400) : val_main_v59 (F := Ideal) x1 (ix1 n) = val_main_v7 (F := Ideal) x1 (ix2 n (3 : Fin 4)) := by
  rw [val_main_v59_apply, val_main_v58_apply]
  refine congrArg (val_main_v7 (F := Ideal) x1) (idx2_ext ?_ ?_)
  · exact Nat.div_one _
  · rfl

theorem q62 (n : Fin 14400) : val_main_v62 (F := Ideal) x1 (ix1 n) = xlo (qbox x1 n) := by
  rw [val_main_v62_apply, val_main_v61_apply, val_main_v60_apply, val_main_cst_13_apply, q53, q57]
  rfl

theorem q65 (n : Fin 14400) : val_main_v65 (F := Ideal) x1 (ix1 n) = ylo (qbox x1 n) := by
  rw [val_main_v65_apply, val_main_v64_apply, val_main_v63_apply, val_main_cst_14_apply, q55, q59]
  rfl

theorem q68 (n : Fin 14400) : val_main_v68 (F := Ideal) x1 (ix1 n) = xhi (qbox x1 n) := by
  rw [val_main_v68_apply, val_main_v67_apply, val_main_v66_apply, val_main_cst_15_apply, q53, q57]
  rfl

theorem q71 (n : Fin 14400) : val_main_v71 (F := Ideal) x1 (ix1 n) = yhi (qbox x1 n) := by
  rw [val_main_v71_apply, val_main_v70_apply, val_main_v69_apply, val_main_cst_16_apply, q55, q59]
  rfl

theorem q76_0 (n : Fin 14400) : val_main_v76 (F := Ideal) x1 (ix2 n (0 : Fin 4)) = xlo (qbox x1 n) := by
  unfold val_main_v76
  rw [catq0, val_main_v72_apply, show idx_main_v72 (ix2 n (0 : Fin 1)) = ix1 n from idx1_ext (by rfl), q62]

theorem q76_1 (n : Fin 14400) : val_main_v76 (F := Ideal) x1 (ix2 n (1 : Fin 4)) = ylo (qbox x1 n) := by
  unfold val_main_v76
  rw [catq1, val_main_v73_apply, show idx_main_v73 (ix2 n (0 : Fin 1)) = ix1 n from idx1_ext (by rfl), q65]

theorem q76_2 (n : Fin 14400) : val_main_v76 (F := Ideal) x1 (ix2 n (2 : Fin 4)) = xhi (qbox x1 n) := by
  unfold val_main_v76
  rw [catq2, val_main_v74_apply, show idx_main_v74 (ix2 n (0 : Fin 1)) = ix1 n from idx1_ext (by rfl), q68]

theorem q76_3 (n : Fin 14400) : val_main_v76 (F := Ideal) x1 (ix2 n (3 : Fin 4)) = yhi (qbox x1 n) := by
  unfold val_main_v76
  rw [catq3, val_main_v75_apply, show idx_main_v75 (ix2 n (0 : Fin 1)) = ix1 n from idx1_ext (by rfl), q71]

/-! ## The target boxes' corners -/

theorem t78 (t : Fin 1600) : val_main_v78 (F := Ideal) x3 (ix1 t) = x3 (ix2 t (0 : Fin 4)) := by
  rw [val_main_v78_apply, val_main_v77_apply]
  refine congrArg x3 (idx2_ext ?_ ?_)
  · exact Nat.div_one _
  · rfl

theorem t80 (t : Fin 1600) : val_main_v80 (F := Ideal) x3 (ix1 t) = x3 (ix2 t (1 : Fin 4)) := by
  rw [val_main_v80_apply, val_main_v79_apply]
  refine congrArg x3 (idx2_ext ?_ ?_)
  · exact Nat.div_one _
  · rfl

theorem t82 (t : Fin 1600) : val_main_v82 (F := Ideal) x3 (ix1 t) = x3 (ix2 t (2 : Fin 4)) := by
  rw [val_main_v82_apply, val_main_v81_apply]
  refine congrArg x3 (idx2_ext ?_ ?_)
  · exact Nat.div_one _
  · rfl

theorem t84 (t : Fin 1600) : val_main_v84 (F := Ideal) x3 (ix1 t) = x3 (ix2 t (3 : Fin 4)) := by
  rw [val_main_v84_apply, val_main_v83_apply]
  refine congrArg x3 (idx2_ext ?_ ?_)
  · exact Nat.div_one _
  · rfl

theorem t87 (t : Fin 1600) : val_main_v87 (F := Ideal) x3 (ix1 t) = xlo (tbox x3 t) := by
  rw [val_main_v87_apply, val_main_v86_apply, val_main_v85_apply, val_main_cst_17_apply, t78, t82]
  rfl

theorem t90 (t : Fin 1600) : val_main_v90 (F := Ideal) x3 (ix1 t) = ylo (tbox x3 t) := by
  rw [val_main_v90_apply, val_main_v89_apply, val_main_v88_apply, val_main_cst_18_apply, t80, t84]
  rfl

theorem t93 (t : Fin 1600) : val_main_v93 (F := Ideal) x3 (ix1 t) = xhi (tbox x3 t) := by
  rw [val_main_v93_apply, val_main_v92_apply, val_main_v91_apply, val_main_cst_19_apply, t78, t82]
  rfl

theorem t96 (t : Fin 1600) : val_main_v96 (F := Ideal) x3 (ix1 t) = yhi (tbox x3 t) := by
  rw [val_main_v96_apply, val_main_v95_apply, val_main_v94_apply, val_main_cst_20_apply, t80, t84]
  rfl

theorem t101_0 (t : Fin 1600) : val_main_v101 (F := Ideal) x3 (ix2 t (0 : Fin 4)) = xlo (tbox x3 t) := by
  unfold val_main_v101
  rw [catt0, val_main_v97_apply, show idx_main_v97 (ix2 t (0 : Fin 1)) = ix1 t from idx1_ext (by rfl), t87]

theorem t101_1 (t : Fin 1600) : val_main_v101 (F := Ideal) x3 (ix2 t (1 : Fin 4)) = ylo (tbox x3 t) := by
  unfold val_main_v101
  rw [catt1, val_main_v98_apply, show idx_main_v98 (ix2 t (0 : Fin 1)) = ix1 t from idx1_ext (by rfl), t90]

theorem t101_2 (t : Fin 1600) : val_main_v101 (F := Ideal) x3 (ix2 t (2 : Fin 4)) = xhi (tbox x3 t) := by
  unfold val_main_v101
  rw [catt2, val_main_v99_apply, show idx_main_v99 (ix2 t (0 : Fin 1)) = ix1 t from idx1_ext (by rfl), t93]

theorem t101_3 (t : Fin 1600) : val_main_v101 (F := Ideal) x3 (ix2 t (3 : Fin 4)) = yhi (tbox x3 t) := by
  unfold val_main_v101
  rw [catt3, val_main_v100_apply, show idx_main_v100 (ix2 t (0 : Fin 1)) = ix1 t from idx1_ext (by rfl), t96]

/-! ## The two areas -/

theorem q103 (n : Fin 14400) : val_main_v103 (F := Ideal) x1 (ix1 n) = xhi (qbox x1 n) := by
  rw [val_main_v103_apply, val_main_v102_apply, show idx_main_v102 (idx_main_v103 (ix1 n)) = ix2 n (2 : Fin 4) from idx2_ext (by exact Nat.div_one _) (by rfl), q76_2]

theorem q105 (n : Fin 14400) : val_main_v105 (F := Ideal) x1 (ix1 n) = xlo (qbox x1 n) := by
  rw [val_main_v105_apply, val_main_v104_apply, show idx_main_v104 (idx_main_v105 (ix1 n)) = ix2 n (0 : Fin 4) from idx2_ext (by exact Nat.div_one _) (by rfl), q76_0]

theorem q108 (n : Fin 14400) : val_main_v108 (F := Ideal) x1 (ix1 n) = yhi (qbox x1 n) := by
  rw [val_main_v108_apply, val_main_v107_apply, show idx_main_v107 (idx_main_v108 (ix1 n)) = ix2 n (3 : Fin 4) from idx2_ext (by exact Nat.div_one _) (by rfl), q76_3]

theorem q110 (n : Fin 14400) : val_main_v110 (F := Ideal) x1 (ix1 n) = ylo (qbox x1 n) := by
  rw [val_main_v110_apply, val_main_v109_apply, show idx_main_v109 (idx_main_v110 (ix1 n)) = ix2 n (1 : Fin 4) from idx2_ext (by exact Nat.div_one _) (by rfl), q76_1]

theorem q112 (n : Fin 14400) : val_main_v112 (F := Ideal) x1 (ix1 n) = area (qbox x1 n) := by
  rw [val_main_v112_apply, val_main_v106_apply, val_main_v111_apply, q103, q105, q108, q110]
  rfl

theorem t114 (t : Fin 1600) : val_main_v114 (F := Ideal) x3 (ix1 t) = xhi (tbox x3 t) := by
  rw [val_main_v114_apply, val_main_v113_apply, show idx_main_v113 (idx_main_v114 (ix1 t)) = ix2 t (2 : Fin 4) from idx2_ext (by exact Nat.div_one _) (by rfl), t101_2]

theorem t116 (t : Fin 1600) : val_main_v116 (F := Ideal) x3 (ix1 t) = xlo (tbox x3 t) := by
  rw [val_main_v116_apply, val_main_v115_apply, show idx_main_v115 (idx_main_v116 (ix1 t)) = ix2 t (0 : Fin 4) from idx2_ext (by exact Nat.div_one _) (by rfl), t101_0]

theorem t119 (t : Fin 1600) : val_main_v119 (F := Ideal) x3 (ix1 t) = yhi (tbox x3 t) := by
  rw [val_main_v119_apply, val_main_v118_apply, show idx_main_v118 (idx_main_v119 (ix1 t)) = ix2 t (3 : Fin 4) from idx2_ext (by exact Nat.div_one _) (by rfl), t101_3]

theorem t121 (t : Fin 1600) : val_main_v121 (F := Ideal) x3 (ix1 t) = ylo (tbox x3 t) := by
  rw [val_main_v121_apply, val_main_v120_apply, show idx_main_v120 (idx_main_v121 (ix1 t)) = ix2 t (1 : Fin 4) from idx2_ext (by exact Nat.div_one _) (by rfl), t101_1]

theorem t123 (t : Fin 1600) : val_main_v123 (F := Ideal) x3 (ix1 t) = area (tbox x3 t) := by
  rw [val_main_v123_apply, val_main_v117_apply, val_main_v122_apply, t114, t116, t119, t121]
  rfl

/-! ## The intersection rectangle -/

theorem m130_0 (n : Fin 14400) (t : Fin 1600) :
    val_main_v130 (F := Ideal) x1 x3 (ix3 n t (0 : Fin 2)) = max (xlo (qbox x1 n)) (xlo (tbox x3 t)) := by
  rw [val_main_v130_apply, val_main_v128_apply, val_main_v125_apply, val_main_v124_apply, val_main_v129_apply, val_main_v127_apply, val_main_v126_apply,
    show idx_main_v124 (idx_main_v125 (idx_main_v128 (ix3 n t (0 : Fin 2)))) = ix2 n (0 : Fin 4) from idx2_ext (by rfl) (by rfl),
    show idx_main_v126 (idx_main_v127 (idx_main_v129 (ix3 n t (0 : Fin 2)))) = ix2 t (0 : Fin 4) from idx2_ext (by rfl) (by rfl), q76_0, t101_0]
  rfl

theorem m130_1 (n : Fin 14400) (t : Fin 1600) :
    val_main_v130 (F := Ideal) x1 x3 (ix3 n t (1 : Fin 2)) = max (ylo (qbox x1 n)) (ylo (tbox x3 t)) := by
  rw [val_main_v130_apply, val_main_v128_apply, val_main_v125_apply, val_main_v124_apply, val_main_v129_apply, val_main_v127_apply, val_main_v126_apply,
    show idx_main_v124 (idx_main_v125 (idx_main_v128 (ix3 n t (1 : Fin 2)))) = ix2 n (1 : Fin 4) from idx2_ext (by rfl) (by rfl),
    show idx_main_v126 (idx_main_v127 (idx_main_v129 (ix3 n t (1 : Fin 2)))) = ix2 t (1 : Fin 4) from idx2_ext (by rfl) (by rfl), q76_1, t101_1]
  rfl

theorem m137_0 (n : Fin 14400) (t : Fin 1600) :
    val_main_v137 (F := Ideal) x1 x3 (ix3 n t (0 : Fin 2)) = min (xhi (qbox x1 n)) (xhi (tbox x3 t)) := by
  rw [val_main_v137_apply, val_main_v135_apply, val_main_v132_apply, val_main_v131_apply, val_main_v136_apply, val_main_v134_apply, val_main_v133_apply,
    show idx_main_v131 (idx_main_v132 (idx_main_v135 (ix3 n t (0 : Fin 2)))) = ix2 n (2 : Fin 4) from idx2_ext (by rfl) (by rfl),
    show idx_main_v133 (idx_main_v134 (idx_main_v136 (ix3 n t (0 : Fin 2)))) = ix2 t (2 : Fin 4) from idx2_ext (by rfl) (by rfl), q76_2, t101_2]
  rfl

theorem m137_1 (n : Fin 14400) (t : Fin 1600) :
    val_main_v137 (F := Ideal) x1 x3 (ix3 n t (1 : Fin 2)) = min (yhi (qbox x1 n)) (yhi (tbox x3 t)) := by
  rw [val_main_v137_apply, val_main_v135_apply, val_main_v132_apply, val_main_v131_apply, val_main_v136_apply, val_main_v134_apply, val_main_v133_apply,
    show idx_main_v131 (idx_main_v132 (idx_main_v135 (ix3 n t (1 : Fin 2)))) = ix2 n (3 : Fin 4) from idx2_ext (by rfl) (by rfl),
    show idx_main_v133 (idx_main_v134 (idx_main_v136 (ix3 n t (1 : Fin 2)))) = ix2 t (3 : Fin 4) from idx2_ext (by rfl) (by rfl), q76_3, t101_3]
  rfl

theorem m139_0 (n : Fin 14400) (t : Fin 1600) :
    val_main_v139 (F := Ideal) x1 x3 (ix3 n t (0 : Fin 2))
      = max w0 (min (xhi (qbox x1 n)) (xhi (tbox x3 t)) - max (xlo (qbox x1 n)) (xlo (tbox x3 t))) := by
  rw [val_main_v139_apply, val_main_call0_v1_apply, val_main_call0_v0_apply, val_main_cst_21_apply, val_main_v138_apply, m137_0, m130_0]
  rfl

theorem m139_1 (n : Fin 14400) (t : Fin 1600) :
    val_main_v139 (F := Ideal) x1 x3 (ix3 n t (1 : Fin 2))
      = max w0 (min (yhi (qbox x1 n)) (yhi (tbox x3 t)) - max (ylo (qbox x1 n)) (ylo (tbox x3 t))) := by
  rw [val_main_v139_apply, val_main_call0_v1_apply, val_main_call0_v0_apply, val_main_cst_21_apply, val_main_v138_apply, m137_1, m130_1]
  rfl

theorem m141 (n : Fin 14400) (t : Fin 1600) :
    val_main_v141 (F := Ideal) x1 x3 (ix2 n t) = val_main_v139 (F := Ideal) x1 x3 (ix3 n t (0 : Fin 2)) := by
  rw [val_main_v141_apply, val_main_v140_apply]
  refine congrArg (val_main_v139 (F := Ideal) x1 x3) (idx3_ext ?_ ?_ (by rfl))
  · have hn := n.isLt
    have ht := t.isLt
    show (n.val * 1600 + t.val) / 1600 = n.val
    omega
  · have hn := n.isLt
    have ht := t.isLt
    show (n.val * 1600 + t.val) / 1 % 1600 = t.val
    omega

theorem m143 (n : Fin 14400) (t : Fin 1600) :
    val_main_v143 (F := Ideal) x1 x3 (ix2 n t) = val_main_v139 (F := Ideal) x1 x3 (ix3 n t (1 : Fin 2)) := by
  rw [val_main_v143_apply, val_main_v142_apply]
  refine congrArg (val_main_v139 (F := Ideal) x1 x3) (idx3_ext ?_ ?_ (by rfl))
  · have hn := n.isLt
    have ht := t.isLt
    show (n.val * 1600 + t.val) / 1600 = n.val
    omega
  · have hn := n.isLt
    have ht := t.isLt
    show (n.val * 1600 + t.val) / 1 % 1600 = t.val
    omega

theorem m144 (n : Fin 14400) (t : Fin 1600) : val_main_v144 (F := Ideal) x1 x3 (ix2 n t) = inter (qbox x1 n) (tbox x3 t) := by
  rw [val_main_v144_apply, m141, m143, m139_0, m139_1]
  rfl

/-! ## The union -/

theorem m147 (n : Fin 14400) (t : Fin 1600) : val_main_v147 (F := Ideal) x1 (ix2 n t) = area (qbox x1 n) := by
  rw [val_main_v147_apply, val_main_v145_apply, show idx_main_v145 (idx_main_v147 (ix2 n t)) = ix1 n from idx1_ext (by rfl), q112]

theorem m148 (n : Fin 14400) (t : Fin 1600) : val_main_v148 (F := Ideal) x3 (ix2 n t) = area (tbox x3 t) := by
  rw [val_main_v148_apply, val_main_v146_apply, show idx_main_v146 (idx_main_v148 (ix2 n t)) = ix1 t from idx1_ext (by rfl), t123]

theorem m150 (n : Fin 14400) (t : Fin 1600) : val_main_v150 (F := Ideal) x1 x3 (ix2 n t) = union (qbox x1 n) (tbox x3 t) := by
  rw [val_main_v150_apply, val_main_v149_apply, m147, m148, m144]
  rfl

/-! ## The enclosing rectangle -/

theorem h158_0 (n : Fin 14400) (t : Fin 1600) :
    val_main_v158 (F := Ideal) x1 x3 (ix3 n t (0 : Fin 2)) = min (xlo (qbox x1 n)) (xlo (tbox x3 t)) := by
  rw [val_main_v158_apply, val_main_v156_apply, val_main_v153_apply, val_main_v152_apply, val_main_v157_apply, val_main_v155_apply, val_main_v154_apply,
    show idx_main_v152 (idx_main_v153 (idx_main_v156 (ix3 n t (0 : Fin 2)))) = ix2 n (0 : Fin 4) from idx2_ext (by rfl) (by rfl),
    show idx_main_v154 (idx_main_v155 (idx_main_v157 (ix3 n t (0 : Fin 2)))) = ix2 t (0 : Fin 4) from idx2_ext (by rfl) (by rfl), q76_0, t101_0]
  rfl

theorem h158_1 (n : Fin 14400) (t : Fin 1600) :
    val_main_v158 (F := Ideal) x1 x3 (ix3 n t (1 : Fin 2)) = min (ylo (qbox x1 n)) (ylo (tbox x3 t)) := by
  rw [val_main_v158_apply, val_main_v156_apply, val_main_v153_apply, val_main_v152_apply, val_main_v157_apply, val_main_v155_apply, val_main_v154_apply,
    show idx_main_v152 (idx_main_v153 (idx_main_v156 (ix3 n t (1 : Fin 2)))) = ix2 n (1 : Fin 4) from idx2_ext (by rfl) (by rfl),
    show idx_main_v154 (idx_main_v155 (idx_main_v157 (ix3 n t (1 : Fin 2)))) = ix2 t (1 : Fin 4) from idx2_ext (by rfl) (by rfl), q76_1, t101_1]
  rfl

theorem h165_0 (n : Fin 14400) (t : Fin 1600) :
    val_main_v165 (F := Ideal) x1 x3 (ix3 n t (0 : Fin 2)) = max (xhi (qbox x1 n)) (xhi (tbox x3 t)) := by
  rw [val_main_v165_apply, val_main_v163_apply, val_main_v160_apply, val_main_v159_apply, val_main_v164_apply, val_main_v162_apply, val_main_v161_apply,
    show idx_main_v159 (idx_main_v160 (idx_main_v163 (ix3 n t (0 : Fin 2)))) = ix2 n (2 : Fin 4) from idx2_ext (by rfl) (by rfl),
    show idx_main_v161 (idx_main_v162 (idx_main_v164 (ix3 n t (0 : Fin 2)))) = ix2 t (2 : Fin 4) from idx2_ext (by rfl) (by rfl), q76_2, t101_2]
  rfl

theorem h165_1 (n : Fin 14400) (t : Fin 1600) :
    val_main_v165 (F := Ideal) x1 x3 (ix3 n t (1 : Fin 2)) = max (yhi (qbox x1 n)) (yhi (tbox x3 t)) := by
  rw [val_main_v165_apply, val_main_v163_apply, val_main_v160_apply, val_main_v159_apply, val_main_v164_apply, val_main_v162_apply, val_main_v161_apply,
    show idx_main_v159 (idx_main_v160 (idx_main_v163 (ix3 n t (1 : Fin 2)))) = ix2 n (3 : Fin 4) from idx2_ext (by rfl) (by rfl),
    show idx_main_v161 (idx_main_v162 (idx_main_v164 (ix3 n t (1 : Fin 2)))) = ix2 t (3 : Fin 4) from idx2_ext (by rfl) (by rfl), q76_3, t101_3]
  rfl

theorem h167_0 (n : Fin 14400) (t : Fin 1600) :
    val_main_v167 (F := Ideal) x1 x3 (ix3 n t (0 : Fin 2))
      = max w0 (max (xhi (qbox x1 n)) (xhi (tbox x3 t)) - min (xlo (qbox x1 n)) (xlo (tbox x3 t))) := by
  rw [val_main_v167_apply, val_main_call1_v1_apply, val_main_call1_v0_apply, val_main_cst_22_apply, val_main_v166_apply, h165_0, h158_0]
  rfl

theorem h167_1 (n : Fin 14400) (t : Fin 1600) :
    val_main_v167 (F := Ideal) x1 x3 (ix3 n t (1 : Fin 2))
      = max w0 (max (yhi (qbox x1 n)) (yhi (tbox x3 t)) - min (ylo (qbox x1 n)) (ylo (tbox x3 t))) := by
  rw [val_main_v167_apply, val_main_call1_v1_apply, val_main_call1_v0_apply, val_main_cst_22_apply, val_main_v166_apply, h165_1, h158_1]
  rfl

theorem h169 (n : Fin 14400) (t : Fin 1600) :
    val_main_v169 (F := Ideal) x1 x3 (ix2 n t) = val_main_v167 (F := Ideal) x1 x3 (ix3 n t (0 : Fin 2)) := by
  rw [val_main_v169_apply, val_main_v168_apply]
  refine congrArg (val_main_v167 (F := Ideal) x1 x3) (idx3_ext ?_ ?_ (by rfl))
  · have hn := n.isLt
    have ht := t.isLt
    show (n.val * 1600 + t.val) / 1600 = n.val
    omega
  · have hn := n.isLt
    have ht := t.isLt
    show (n.val * 1600 + t.val) / 1 % 1600 = t.val
    omega

theorem h171 (n : Fin 14400) (t : Fin 1600) :
    val_main_v171 (F := Ideal) x1 x3 (ix2 n t) = val_main_v167 (F := Ideal) x1 x3 (ix3 n t (1 : Fin 2)) := by
  rw [val_main_v171_apply, val_main_v170_apply]
  refine congrArg (val_main_v167 (F := Ideal) x1 x3) (idx3_ext ?_ ?_ (by rfl))
  · have hn := n.isLt
    have ht := t.isLt
    show (n.val * 1600 + t.val) / 1600 = n.val
    omega
  · have hn := n.isLt
    have ht := t.isLt
    show (n.val * 1600 + t.val) / 1 % 1600 = t.val
    omega

theorem h172 (n : Fin 14400) (t : Fin 1600) : val_main_v172 (F := Ideal) x1 x3 (ix2 n t) = hull (qbox x1 n) (tbox x3 t) := by
  rw [val_main_v172_apply, h169, h171, h167_0, h167_1]
  rfl

/-! ## The generalized-IoU cost -/

/-- The reference's last array of this term, in the specification's vocabulary. -/
theorem g176 (n : Fin 14400) (t : Fin 1600) :
    val_main_v176 (F := Ideal) x1 x3 (ix2 n t)
      = -(Ideal.div (inter (qbox x1 n) (tbox x3 t)) (union (qbox x1 n) (tbox x3 t))
          - Ideal.div (hull (qbox x1 n) (tbox x3 t) - union (qbox x1 n) (tbox x3 t)) (hull (qbox x1 n) (tbox x3 t))) := by
  rw [val_main_v176_apply, val_main_v175_apply, val_main_v151_apply, val_main_v174_apply, val_main_v173_apply, m144, m150, h172]
  rfl

/-- On real boxes the reference's generalized-IoU term is the specification's. -/
theorem ref_giou_apply (x1 : (⟨S16x900x4, .f32⟩ : BufTy).Contents (Elt Ideal)) (x3 : (⟨S1600x4, .f32⟩ : BufTy).Contents (Elt Ideal)) (hx1 : IsReal x1) (hx3 : IsReal x3) (n : Fin 14400) (t : Fin 1600) :
    Read.val_main_v176 (F := Ideal) x1 x3 (ix2 n t)
      = giouCost (fun k => Read.val_main_v7 (F := Ideal) x1 (ix2 n k)) (fun k => x3 (ix2 t k)) := by
  have hq : ∀ k : Fin 4, ∃ r : ℝ, val_main_v7 (F := Ideal) x1 (ix2 n k) = (r : EReal) := fun k => by
    rw [val_main_v7_apply]
    exact hx1 _
  have ht : ∀ k : Fin 4, ∃ r : ℝ, x3 (ix2 t k) = (r : EReal) := fun k => hx3 _
  obtain ⟨a, ha⟩ : ∃ a : Fin 4 → ℝ, ∀ k, val_main_v7 (F := Ideal) x1 (ix2 n k) = (a k : EReal) :=
    ⟨fun k => Classical.choose (hq k), fun k => Classical.choose_spec (hq k)⟩
  obtain ⟨b, hb⟩ : ∃ b : Fin 4 → ℝ, ∀ k, x3 (ix2 t k) = (b k : EReal) :=
    ⟨fun k => Classical.choose (ht k), fun k => Classical.choose_spec (ht k)⟩
  have eA : qbox x1 n = fun k => (a k : EReal) := funext ha
  have eB : tbox x3 t = fun k => (b k : EReal) := funext hb
  have key := ref_giou_eq a b
  rw [← eA, ← eB] at key
  rw [g176]
  exact key

end Cert.ReferenceIdeal.RefValue

end
-- ==== Proof.RefTotal.lean ====
/-
  The reference program's result is the specification's cost matrix, reshaped.

  The last lines of the reference weigh the three terms by the constant one, add them left to right as
  `(1·l1 + 1·class) + 1·giou`, and reshape `[14400, 1600]` to `[16, 900, 1600]`. Multiplying by one changes nothing, the
  three terms are the specification's at every query–target pair, and the sum is the specification's `cost`.
-/
import proofs.«412521_j19782619365959_3_alg».proof.Proof.RefClassBox
import proofs.«412521_j19782619365959_3_alg».proof.Proof.RefGiou

noncomputable section

namespace Cert.ReferenceIdeal.RefValue

open Cert.ReferenceIdeal Cert.ReferenceIdeal.Gen Cert.ReferenceIdeal.Read
open Idealize.ShloMosaic Idealize.ShloMosaic.ValueIdx Cert.MatchCost

/-- The weighted sum at a pair: each term times the constant one, added left to right. -/
theorem v184_at (x0 : (⟨S16x900x91, .f32⟩ : BufTy).Contents (Elt Ideal)) (x1 : (⟨S16x900x4, .f32⟩ : BufTy).Contents (Elt Ideal)) (x2 : (⟨S1600, .i32⟩ : BufTy).Contents (Elt Ideal)) (x3 : (⟨S1600x4, .f32⟩ : BufTy).Contents (Elt Ideal)) (n : Fin 14400) (t : Fin 1600) :
    val_main_v184 (F := Ideal) x0 x1 x2 x3 (ix2 n t)
      = (w1 * val_main_v51 (F := Ideal) x1 x3 (ix2 n t) + w1 * val_main_v44 (F := Ideal) x0 x2 (ix2 n t))
          + w1 * val_main_v176 (F := Ideal) x1 x3 (ix2 n t) := by
  rw [val_main_v184_apply, val_main_v181_apply, val_main_v183_apply, val_main_v178_apply, val_main_v180_apply,
    val_main_v177_apply, val_main_v179_apply, val_main_v182_apply, val_main_cst_23_apply, val_main_cst_24_apply,
    val_main_cst_25_apply]
  rfl

/-- The reference computes the cost matrix. -/
theorem ref_value (x0 : (⟨S16x900x91, .f32⟩ : BufTy).Contents (Elt Ideal)) (x1 : (⟨S16x900x4, .f32⟩ : BufTy).Contents (Elt Ideal)) (x2 : (⟨S1600, .i32⟩ : BufTy).Contents (Elt Ideal)) (x3 : (⟨S1600x4, .f32⟩ : BufTy).Contents (Elt Ideal))
    (hx0 : IsReal x0) (hx1 : IsReal x1) (hx3 : IsReal x3) (hlab : NonNeg x2) :
    Read.val_main_v185 (F := Ideal) x0 x1 x2 x3
      = shapeCast S16x900x1600
          (costMatrix (shapeCast S14400x91 x0 shapeCasts_S16x900x91_S14400x91)
            (shapeCast S14400x4 x1 shapeCasts_S16x900x4_S14400x4) x2 x3)
          shapeCasts_S14400x1600_S16x900x1600 := by
  unfold val_main_v185
  refine congrArg (fun v => shapeCast S16x900x1600 v shapeCasts_S14400x1600_S16x900x1600) ?_
  funext j
  obtain ⟨n, t, rfl⟩ : ∃ (n : Fin 14400) (t : Fin 1600), j = ix2 n t := ⟨j 0, j 1, eq_ix2 j⟩
  rw [v184_at, ref_total_eq, ref_l1_apply, ref_class_apply x0 x2 hx0 hlab, ref_giou_apply x1 x3 hx1 hx3]
  rfl

end Cert.ReferenceIdeal.RefValue

end
-- ==== Proof.ValueClaims.lean ====
/-
  The two idealized programs compute one cost matrix.

  Under the precondition the float arguments hold reals and the labels are nonnegative. The kernel's run ends with the
  reshaped cost matrix of its (reshaped) arguments; the reference's straight-line run ends with the same term of its
  own arguments, which agree with the kernel's; the common value is the witness.
-/
import proofs.«412521_j19782619365959_3_alg».proof.Defs
import proofs.«412521_j19782619365959_3_alg».proof.Proof.Gen.Pre_finite_inputs
import proofs.«412521_j19782619365959_3_alg».proof.Proof.PreFacts
import proofs.«412521_j19782619365959_3_alg».proof.Proof.KernelValue
import proofs.«412521_j19782619365959_3_alg».proof.Proof.RefTotal

noncomputable section

namespace Cert.Proof.ValueClaims

open Idealize.ShloMosaic Idealize.ShloMosaic.TcCoe Idealize.SL.Sem Cert.MatchCost

theorem algebraic : Cert.algebraic_KernelIdeal_ReferenceIdeal := by
  intro m ρ m' ρ' hpre hagree
  have hd := fun c => Cert.MatchCost.PreFacts.decode _ _ _ _ (hpre c)
  refine ⟨_, Cert.KernelIdeal.KernelValue.kernel_value m ρ (fun c => (hd c).1) (fun c => (hd c).2.2.1), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v185_eq, (hagree c).1, (hagree c).2.1, (hagree c).2.2.1, (hagree c).2.2.2]
  exact Cert.ReferenceIdeal.RefValue.ref_value _ _ _ _ (hd c).1 (hd c).2.1 (hd c).2.2.2 (hd c).2.2.1

end Cert.Proof.ValueClaims

end
-- ==== Proof.lean ====
/-
  A matcher's cost matrix, kernel against reference, over the extended reals.

  For 14400 queries (16 images × 900) and 1600 targets the programs compute, entry by entry,
    ‖a − b‖₁ + (pos − neg)(σ(logit at the target's class)) + (1 − iou − union / hull),
  the focal class cost, the L1 box distance and the negated generalized IoU of the query box `a` and the target box `b`.
  The kernel gathers the class cost by contracting with a one-hot table (three times, over a bf16 three-way split whose
  remainders vanish on the reals) and folds the GIoU tail to `1 − iou − union / hull`; the reference gathers by index and
  negates `iou − (hull − union) / hull`. The two tails agree on the extended reals in every corner of the divisions, the
  inputs being finite; the gathers agree for nonnegative labels (both clamp above; below zero the reference wraps and
  the kernel clamps, which is why the labels are taken in their range from below).

  Spec.lean writes the common value; Laws.lean the extended-real algebra; PreFacts.lean reads the precondition back;
  KernelPayload / KernelHost / KernelArray / KernelValue the kernel's side; RefClassBox / RefGiou / RefTotal the
  reference's; FrameClaims the three frames and the two ledger entries; ValueClaims the equivalence.
-/
import proofs.«412521_j19782619365959_3_alg».proof.Defs
import proofs.«412521_j19782619365959_3_alg».proof.Proof.Gen.Kernel
import proofs.«412521_j19782619365959_3_alg».proof.Proof.Gen.Kernel.Skeleton
import proofs.«412521_j19782619365959_3_alg».proof.Proof.Gen.Kernel.Launch
import proofs.«412521_j19782619365959_3_alg».proof.Proof.Gen.Kernel.Points
import proofs.«412521_j19782619365959_3_alg».proof.Proof.Gen.Kernel.Frame
import proofs.«412521_j19782619365959_3_alg».proof.Proof.Gen.KernelIdeal
import proofs.«412521_j19782619365959_3_alg».proof.Proof.Gen.KernelIdeal.Skeleton
import proofs.«412521_j19782619365959_3_alg».proof.Proof.Gen.KernelIdeal.Launch
import proofs.«412521_j19782619365959_3_alg».proof.Proof.Gen.KernelIdeal.Points
import proofs.«412521_j19782619365959_3_alg».proof.Proof.Gen.KernelIdeal.Frame
import proofs.«412521_j19782619365959_3_alg».proof.Proof.Gen.ReferenceIdeal
import proofs.«412521_j19782619365959_3_alg».proof.Proof.Gen.ReferenceIdeal.Run
import proofs.«412521_j19782619365959_3_alg».proof.Proof.Gen.ReferenceIdeal.Read
import proofs.«412521_j19782619365959_3_alg».proof.Proof.Gen.Pre_finite_inputs
import proofs.«412521_j19782619365959_3_alg».proof.Proof.FrameClaims
import proofs.«412521_j19782619365959_3_alg».proof.Proof.ValueClaims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  FrameClaims.frame_k, FrameClaims.frame_ki, FrameClaims.frame_ri, FrameClaims.preserves, ValueClaims.algebraic⟩

end Cert.Proof

end
